-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_arg9 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x16 .f32) (main_arg9 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 92
  | .vmem => 32
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S1x16, .f32⟩
  | .hbm, ⟨91, _⟩ => ⟨S100000x16, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x16, .f32⟩
  | .local _ .vmem, ⟨29, _⟩ => ⟨S1x16, .f32⟩
  | .local _ .vmem, ⟨30, _⟩ => ⟨S10000x16, .f32⟩
  | .local _ .vmem, ⟨31, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x16.size a ≤ S64x16.size a
  hwx5_1 : ∀ i : grid5.Coords, EltTy.bits .f32 = 32 ∨ (Rect.block (s := S64x16) S64x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x16.size a ≤ S100000x16.size a
  hwx5_3 : ∀ i : grid5.Coords, EltTy.bits .f32 = 32 ∨ (Rect.block (s := S100000x16) S10000x16.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S10000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S100000x16 : Shape := ⟨2, ![100000, 16]⟩
abbrev S1x16 : Shape := ⟨2, ![1, 16]⟩

abbrev nBuf : Space → Nat
  | .hbm => 107
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .f32⟩
  | .hbm, ⟨90, _⟩ => ⟨S1700000x1, .f32⟩
  | .hbm, ⟨91, _⟩ => ⟨S1700000x64, .f32⟩
  | .hbm, ⟨92, _⟩ => ⟨S1700000x64, .f32⟩
  | .hbm, ⟨93, _⟩ => ⟨S_, .f32⟩
  | .hbm, ⟨94, _⟩ => ⟨S100000x64, .f32⟩
  | .hbm, ⟨95, _⟩ => ⟨S1700000x1, .i32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x16, .f32⟩
  | .hbm, ⟨104, _⟩ => ⟨S1x16, .f32⟩
  | .hbm, ⟨105, _⟩ => ⟨S100000x16, .f32⟩
  | .hbm, ⟨106, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_cst : Ref sig .tc := ⟨.hbm, 54, rfl⟩
abbrev main_call1_v0 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The network both programs compute, as functions of whole arrays read index by index over the extended reals.

  A graph-convolution stack on N = 100000 nodes: a dense layer with bias and rectifier (32 → 64 features), two
  rounds of "multiply by a 64 × 64 matrix, aggregate over the edges, add a bias row, rectify", and a last dense
  layer with bias (64 → 16). Every dense stage is, at row `r` and feature `j`, the sum over `k` of
  `x[r, k] · w[k, j]`; a bias row is added to every row; the rectifier is the maximum with zero. The aggregation over
  the edges (gather the rows the edge list names, scale each by its edge's normalisation, scatter-add into the
  destination rows) is carried here as ONE function `agg` from node features to node features: both programs apply the
  same one, so nothing about it is ever opened.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with `n` rows and `p` columns, index by index. -/
abbrev Mat (n p : Nat) : Type := FVec Ideal (⟨2, ![n, p]⟩ : Shape) .f32
/-- A vector of `p` extended reals. -/
abbrev Row (p : Nat) : Type := FVec Ideal (⟨1, ![p]⟩ : Shape) .f32

/-- The row coordinate of a matrix index, as a number below the row count. -/
abbrev rowOf {n p : Nat} (i : (⟨2, ![n, p]⟩ : Shape).Idx) : Fin n := ⟨(i 0).val, (i 0).isLt⟩
/-- The column coordinate of a matrix index, as a number below the column count. -/
abbrev colOf {n p : Nat} (i : (⟨2, ![n, p]⟩ : Shape).Idx) : Fin p := ⟨(i 1).val, (i 1).isLt⟩

/-- `x · w` for 32 input features and 64 output features: entry `(r, j)` is `∑ k, x[r, k] · w[k, j]`. -/
def lin32 (x : Mat 100000 32) (w : Mat 32 64) : Mat 100000 64 :=
  fun i => ∑ k : Fin 32, x (ix2 (rowOf i) k) * w (ix2 k (colOf i))
/-- `x · w` for 64 input and 64 output features. -/
def lin64 (x : Mat 100000 64) (w : Mat 64 64) : Mat 100000 64 :=
  fun i => ∑ k : Fin 64, x (ix2 (rowOf i) k) * w (ix2 k (colOf i))
/-- `x · w` for 64 input and 16 output features. -/
def lin16 (x : Mat 100000 64) (w : Mat 64 16) : Mat 100000 16 :=
  fun i => ∑ k : Fin 64, x (ix2 (rowOf i) k) * w (ix2 k (colOf i))

/-- A one-row matrix `b` added to every row of `y` (64 features). -/
def addRow64 (y : Mat 100000 64) (b : Mat 1 64) : Mat 100000 64 :=
  fun i => y i + b (ix2 (0 : Fin 1) (colOf i))
/-- A one-row matrix `b` added to every row of `y` (16 features). -/
def addRow16 (y : Mat 100000 16) (b : Mat 1 16) : Mat 100000 16 :=
  fun i => y i + b (ix2 (0 : Fin 1) (colOf i))

/-- The rectifier: the maximum with the real the zero word denotes. -/
def relu64 (y : Mat 100000 64) : Mat 100000 64 :=
  fun i => max (y i) (Ideal.ofBits .f32 0x00000000#32)

/-- A vector of 64 entries laid out as a one-row matrix. -/
def asRow64 (b : Row 64) : Mat 1 64 := fun i => b (ix1 (colOf i))
/-- A vector of 16 entries laid out as a one-row matrix. -/
def asRow16 (b : Row 16) : Mat 1 16 := fun i => b (ix1 (colOf i))

/-- The first hidden layer: `relu (x · w_in + b_in)`. -/
def hidden0 (x : Mat 100000 32) (wIn : Mat 32 64) (bIn : Row 64) : Mat 100000 64 :=
  relu64 (addRow64 (lin32 x wIn) (asRow64 bIn))

/-- One graph-convolution round over the aggregation `agg`: `relu (agg (h · w) + b)`. -/
def conv (agg : Mat 100000 64 → Mat 100000 64) (h : Mat 100000 64) (w : Mat 64 64) (b : Row 64) : Mat 100000 64 :=
  relu64 (addRow64 (agg (lin64 h w)) (asRow64 b))

/-- The whole network over the aggregation `agg`. -/
def net (agg : Mat 100000 64 → Mat 100000 64) (x : Mat 100000 32) (wIn : Mat 32 64) (bIn : Row 64)
    (w1 : Mat 64 64) (b1 : Row 64) (w2 : Mat 64 64) (b2 : Row 64) (wFc : Mat 64 16) (bFc : Row 16) : Mat 100000 16 :=
  addRow16 (lin16 (conv agg (conv agg (hidden0 x wIn bIn) w1 b1) w2 b2) wFc) (asRow16 bFc)

end Cert.Gcn

end
-- ==== Proof.KernelHost.lean ====
/-
  The kernel program's host operations between its six regions, read through the contents of the buffers at each
  boundary of @main (`W0` at launch, … , `W12` at the return).

  Three things happen on the host. Before the first region the edge list is split into source and destination
  nodes, each extended by the self loops, and the symmetric normalisation of every edge is computed from the
  destination degrees: those three arrays are written once and never again. Before regions 2 and 4 the rows of the
  node features are gathered along the sources, scaled by the normalisation and scatter-added along the
  destinations: the aggregation `aggK`, the same function of the same three arrays both times. And each bias vector is
  reshaped to one row for its region. Everything else a stretch or a region does not write keeps its contents (the table of those cases is
  KernelKeep.lean), so the weights and biases are read at their launch contents wherever they are used.
-/
import proofs.«103870_j48739288875467_1_alg».proof.Proof.Gen.KernelIdeal.Frame
import proofs.«103870_j48739288875467_1_alg».proof.Proof.Spec
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

/-- The aggregation over the edges as the host spells it: node features `T` gathered along the source nodes `src`
    (a negative index counted from the end), each gathered row scaled by its edge's normalisation `nrm`, the scaled
    rows scatter-added into a zero array along the destination nodes `dst`. -/
def aggK (src dst : (⟨S1700000, .i32⟩ : BufTy).Contents (Elt Ideal)) (nrm : (⟨S1700000, .f32⟩ : BufTy).Contents (Elt Ideal))
    (T : (⟨S100000x64, .f32⟩ : BufTy).Contents (Elt Ideal)) : (⟨S100000x64, .f32⟩ : BufTy).Contents (Elt Ideal) :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf
      (Host.gather gather_S100000x64_S1700000x1_S1700000x64_1_0_n_n_0_1_164 T
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x64 ![0, 1] bcast_S1700000x1_S1700000x64_0_1
        (broadcastInDim S1700000x1 ![0] bcast_S1700000_S1700000x1_0 nrm)))

/-! ## Before the first region: the first bias as one row -/

set_option maxHeartbeats 4000000 in
/-- The first bias, reshaped to one row just before region 0. -/
theorem W3_v30 (c : Dev nD) :
    W3 m ρ c (Proc.devRef .tc main_v30) = shapeCast S1x64 (m ((c : Thread nD τ).loc main_arg3)) shapeCasts_S64_S1x64 := by
  show StableHlo.after hostOps0_2 (StableHlo.after hostOps0_1 (StableHlo.after hostOps0 (W0 m ρ c))) (Proc.devRef .tc main_v30) = _
  dsimp only [hostOps0_2, hostOps0_1, hostOps0]
  after_results_simp
  rfl

/-! ## The stretch before region 2: the first aggregation and the second bias -/

set_option maxHeartbeats 4000000 in
/-- The first aggregation: `aggK` of the edge arrays and of region 1's result. -/
theorem W6_v45 (c : Dev nD) :
    W6 m ρ c (Proc.devRef .tc main_v45) = aggK (W5 m ρ c (Proc.devRef .tc main_v3)) (W5 m ρ c (Proc.devRef .tc main_v6)) (W5 m ρ c (Proc.devRef .tc main_v29)) (W5 m ρ c (Proc.devRef .tc main_v32)) := by
  show StableHlo.after hostOps2 (W5 m ρ c) (Proc.devRef .tc main_v45) = _
  dsimp only [hostOps2]
  after_results_simp
  rfl

set_option maxHeartbeats 4000000 in
/-- The second bias as one row. -/
theorem W6_v46 (c : Dev nD) :
    W6 m ρ c (Proc.devRef .tc main_v46) = shapeCast S1x64 (W5 m ρ c (Proc.devRef .tc main_arg5)) shapeCasts_S64_S1x64 := by
  show StableHlo.after hostOps2 (W5 m ρ c) (Proc.devRef .tc main_v46) = _
  dsimp only [hostOps2]
  after_results_simp
  rfl

/-! ## The stretch before region 4: the second aggregation and the third bias -/

set_option maxHeartbeats 4000000 in
/-- The second aggregation: `aggK` of the same edge arrays and of region 3's result. -/
theorem W9_v61 (c : Dev nD) :
    W9 m ρ c (Proc.devRef .tc main_v61) = aggK (W8 m ρ c (Proc.devRef .tc main_v3)) (W8 m ρ c (Proc.devRef .tc main_v6)) (W8 m ρ c (Proc.devRef .tc main_v29)) (W8 m ρ c (Proc.devRef .tc main_v48)) := by
  show StableHlo.after hostOps4 (W8 m ρ c) (Proc.devRef .tc main_v61) = _
  dsimp only [hostOps4]
  after_results_simp
  rfl

set_option maxHeartbeats 4000000 in
/-- The third bias as one row. -/
theorem W9_v62 (c : Dev nD) :
    W9 m ρ c (Proc.devRef .tc main_v62) = shapeCast S1x64 (W8 m ρ c (Proc.devRef .tc main_arg7)) shapeCasts_S64_S1x64 := by
  show StableHlo.after hostOps4 (W8 m ρ c) (Proc.devRef .tc main_v62) = _
  dsimp only [hostOps4]
  after_results_simp
  rfl

/-! ## The stretch before region 5: the last bias as one row -/

set_option maxHeartbeats 4000000 in
/-- The last bias (16 entries) as one row. -/
theorem W11_v64 (c : Dev nD) :
    W11 m ρ c (Proc.devRef .tc main_v64) = shapeCast S1x16 (W10 m ρ c (Proc.devRef .tc main_arg9)) shapeCasts_S16_S1x16 := by
  show StableHlo.after hostOps5 (W10 m ρ c) (Proc.devRef .tc main_v64) = _
  dsimp only [hostOps5]
  after_results_simp
  rfl

end Cert.KernelIdeal.Val

end
-- ==== Proof.KernelKeep.lean ====
/-
  Buffers the kernel program's host stretches and regions do not write, case by case: such a buffer holds after the
  stretch, or the region, what it held before. Before region 0 that reaches back to the launch contents; later it
  carries a weight, a bias or one of the three edge arrays from where it was last written to where it is read.
-/
import proofs.«103870_j48739288875467_1_alg».proof.Proof.Gen.KernelIdeal.Frame
import Idealize.ShloMosaic.Lib.StableHlo.Run
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

/-! ## Before region 0: the arguments at their launch contents -/

set_option maxHeartbeats 4000000 in
/-- Nothing before region 0 writes `main_arg0`: it holds its launch contents there. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results_simp

set_option maxHeartbeats 4000000 in
/-- Nothing before region 0 writes `main_arg2`: it holds its launch contents there. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results_simp

set_option maxHeartbeats 4000000 in
/-- Nothing before region 0 writes `main_arg4`: it holds its launch contents there. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results_simp

set_option maxHeartbeats 4000000 in
/-- Nothing before region 0 writes `main_arg5`: it holds its launch contents there. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results_simp

set_option maxHeartbeats 4000000 in
/-- Nothing before region 0 writes `main_arg6`: it holds its launch contents there. -/
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results_simp

set_option maxHeartbeats 4000000 in
/-- Nothing before region 0 writes `main_arg7`: it holds its launch contents there. -/
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0_2, hostOps0_1, hostOps0]
  after_results_simp

set_option maxHeartbeats 4000000 in
/-- Nothing before region 0 writes `main_arg8`: it holds its launch contents there. -/
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  dsimp only [hostOps0_2, hostOps0_1, hostOps0]
  after_results_simp

set_option maxHeartbeats 4000000 in
/-- Nothing before region 0 writes `main_arg9`: it holds its launch contents there. -/
theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  dsimp only [hostOps0_2, hostOps0_1, hostOps0]
  after_results_simp

/-! ## The stretch before region 2 -/

set_option maxHeartbeats 4000000 in
/-- The stretch `hostOps2` does not write `main_v3`. -/
theorem W6_keep_v3 (c : Dev nD) : W6 m ρ c (Proc.devRef .tc main_v3) = W5 m ρ c (Proc.devRef .tc main_v3) := by
  show StableHlo.after hostOps2 (W5 m ρ c) (Proc.devRef .tc main_v3) = _
  dsimp only [hostOps2]
  after_results_simp

set_option maxHeartbeats 4000000 in
/-- The stretch `hostOps2` does not write `main_v6`. -/
theorem W6_keep_v6 (c : Dev nD) : W6 m ρ c (Proc.devRef .tc main_v6) = W5 m ρ c (Proc.devRef .tc main_v6) := by
  show StableHlo.after hostOps2 (W5 m ρ c) (Proc.devRef .tc main_v6) = _
  dsimp only [hostOps2]
  after_results_simp

set_option maxHeartbeats 4000000 in
/-- The stretch `hostOps2` does not write `main_v29`. -/
theorem W6_keep_v29 (c : Dev nD) : W6 m ρ c (Proc.devRef .tc main_v29) = W5 m ρ c (Proc.devRef .tc main_v29) := by
  show StableHlo.after hostOps2 (W5 m ρ c) (Proc.devRef .tc main_v29) = _
  dsimp only [hostOps2]
  after_results_simp

set_option maxHeartbeats 4000000 in
/-- The stretch `hostOps2` does not write `main_arg6`. -/
theorem W6_keep_arg6 (c : Dev nD) : W6 m ρ c (Proc.devRef .tc main_arg6) = W5 m ρ c (Proc.devRef .tc main_arg6) := by
  show StableHlo.after hostOps2 (W5 m ρ c) (Proc.devRef .tc main_arg6) = _
  dsimp only [hostOps2]
  after_results_simp

set_option maxHeartbeats 4000000 in
/-- The stretch `hostOps2` does not write `main_arg7`. -/
theorem W6_keep_arg7 (c : Dev nD) : W6 m ρ c (Proc.devRef .tc main_arg7) = W5 m ρ c (Proc.devRef .tc main_arg7) := by
  show StableHlo.after hostOps2 (W5 m ρ c) (Proc.devRef .tc main_arg7) = _
  dsimp only [hostOps2]
  after_results_simp

set_option maxHeartbeats 4000000 in
/-- The stretch `hostOps2` does not write `main_arg8`. -/
theorem W6_keep_arg8 (c : Dev nD) : W6 m ρ c (Proc.devRef .tc main_arg8) = W5 m ρ c (Proc.devRef .tc main_arg8) := by
  show StableHlo.after hostOps2 (W5 m ρ c) (Proc.devRef .tc main_arg8) = _
  dsimp only [hostOps2]
  after_results_simp

set_option maxHeartbeats 4000000 in
/-- The stretch `hostOps2` does not write `main_arg9`. -/
theorem W6_keep_arg9 (c : Dev nD) : W6 m ρ c (Proc.devRef .tc main_arg9) = W5 m ρ c (Proc.devRef .tc main_arg9) := by
  show StableHlo.after hostOps2 (W5 m ρ c) (Proc.devRef .tc main_arg9) = _
  dsimp only [hostOps2]
  after_results_simp

/-! ## The stretch before region 4 -/

set_option maxHeartbeats 4000000 in
/-- The stretch `hostOps4` does not write `main_arg8`. -/
theorem W9_keep_arg8 (c : Dev nD) : W9 m ρ c (Proc.devRef .tc main_arg8) = W8 m ρ c (Proc.devRef .tc main_arg8) := by
  show StableHlo.after hostOps4 (W8 m ρ c) (Proc.devRef .tc main_arg8) = _
  dsimp only [hostOps4]
  after_results_simp

set_option maxHeartbeats 4000000 in
/-- The stretch `hostOps4` does not write `main_arg9`. -/
theorem W9_keep_arg9 (c : Dev nD) : W9 m ρ c (Proc.devRef .tc main_arg9) = W8 m ρ c (Proc.devRef .tc main_arg9) := by
  show StableHlo.after hostOps4 (W8 m ρ c) (Proc.devRef .tc main_arg9) = _
  dsimp only [hostOps4]
  after_results_simp

/-! ## The stretch before region 5 -/

set_option maxHeartbeats 4000000 in
/-- The stretch `hostOps5` does not write `main_v63`. -/
theorem W11_keep_v63 (c : Dev nD) : W11 m ρ c (Proc.devRef .tc main_v63) = W10 m ρ c (Proc.devRef .tc main_v63) := by
  show StableHlo.after hostOps5 (W10 m ρ c) (Proc.devRef .tc main_v63) = _
  dsimp only [hostOps5]
  after_results_simp

set_option maxHeartbeats 4000000 in
/-- The stretch `hostOps5` does not write `main_arg8`. -/
theorem W11_keep_arg8 (c : Dev nD) : W11 m ρ c (Proc.devRef .tc main_arg8) = W10 m ρ c (Proc.devRef .tc main_arg8) := by
  show StableHlo.after hostOps5 (W10 m ρ c) (Proc.devRef .tc main_arg8) = _
  dsimp only [hostOps5]
  after_results_simp

/-! ## Carried from region 0's entry to the reader -/

/-- `main_arg4` is carried unchanged from region 0's entry to the boundary `W4`, where it is read. -/
theorem W4_arg4 (c : Dev nD) : W4 m ρ c (Proc.devRef .tc main_arg4) = W3 m ρ c (Proc.devRef .tc main_arg4) :=
  W4_of_ne m ρ c main_arg4 (by decide)

/-- `main_v3` is carried unchanged from region 0's entry to the boundary `W5`, where it is read. -/
theorem W5_v3 (c : Dev nD) : W5 m ρ c (Proc.devRef .tc main_v3) = W3 m ρ c (Proc.devRef .tc main_v3) :=
  (W5_of_ne m ρ c main_v3 (by decide)).trans (W4_of_ne m ρ c main_v3 (by decide))

/-- `main_v6` is carried unchanged from region 0's entry to the boundary `W5`, where it is read. -/
theorem W5_v6 (c : Dev nD) : W5 m ρ c (Proc.devRef .tc main_v6) = W3 m ρ c (Proc.devRef .tc main_v6) :=
  (W5_of_ne m ρ c main_v6 (by decide)).trans (W4_of_ne m ρ c main_v6 (by decide))

/-- `main_v29` is carried unchanged from region 0's entry to the boundary `W5`, where it is read. -/
theorem W5_v29 (c : Dev nD) : W5 m ρ c (Proc.devRef .tc main_v29) = W3 m ρ c (Proc.devRef .tc main_v29) :=
  (W5_of_ne m ρ c main_v29 (by decide)).trans (W4_of_ne m ρ c main_v29 (by decide))

/-- `main_arg5` is carried unchanged from region 0's entry to the boundary `W5`, where it is read. -/
theorem W5_arg5 (c : Dev nD) : W5 m ρ c (Proc.devRef .tc main_arg5) = W3 m ρ c (Proc.devRef .tc main_arg5) :=
  (W5_of_ne m ρ c main_arg5 (by decide)).trans (W4_of_ne m ρ c main_arg5 (by decide))

/-- `main_arg6` is carried unchanged from region 0's entry to the boundary `W7`, where it is read. -/
theorem W7_arg6 (c : Dev nD) : W7 m ρ c (Proc.devRef .tc main_arg6) = W3 m ρ c (Proc.devRef .tc main_arg6) :=
  (W7_of_ne m ρ c main_arg6 (by decide)).trans ((W6_keep_arg6 m ρ c).trans ((W5_of_ne m ρ c main_arg6 (by decide)).trans (W4_of_ne m ρ c main_arg6 (by decide))))

/-- `main_v3` is carried unchanged from region 0's entry to the boundary `W8`, where it is read. -/
theorem W8_v3 (c : Dev nD) : W8 m ρ c (Proc.devRef .tc main_v3) = W3 m ρ c (Proc.devRef .tc main_v3) :=
  (W8_of_ne m ρ c main_v3 (by decide)).trans ((W7_of_ne m ρ c main_v3 (by decide)).trans ((W6_keep_v3 m ρ c).trans ((W5_of_ne m ρ c main_v3 (by decide)).trans (W4_of_ne m ρ c main_v3 (by decide)))))

/-- `main_v6` is carried unchanged from region 0's entry to the boundary `W8`, where it is read. -/
theorem W8_v6 (c : Dev nD) : W8 m ρ c (Proc.devRef .tc main_v6) = W3 m ρ c (Proc.devRef .tc main_v6) :=
  (W8_of_ne m ρ c main_v6 (by decide)).trans ((W7_of_ne m ρ c main_v6 (by decide)).trans ((W6_keep_v6 m ρ c).trans ((W5_of_ne m ρ c main_v6 (by decide)).trans (W4_of_ne m ρ c main_v6 (by decide)))))

/-- `main_v29` is carried unchanged from region 0's entry to the boundary `W8`, where it is read. -/
theorem W8_v29 (c : Dev nD) : W8 m ρ c (Proc.devRef .tc main_v29) = W3 m ρ c (Proc.devRef .tc main_v29) :=
  (W8_of_ne m ρ c main_v29 (by decide)).trans ((W7_of_ne m ρ c main_v29 (by decide)).trans ((W6_keep_v29 m ρ c).trans ((W5_of_ne m ρ c main_v29 (by decide)).trans (W4_of_ne m ρ c main_v29 (by decide)))))

/-- `main_arg7` is carried unchanged from region 0's entry to the boundary `W8`, where it is read. -/
theorem W8_arg7 (c : Dev nD) : W8 m ρ c (Proc.devRef .tc main_arg7) = W3 m ρ c (Proc.devRef .tc main_arg7) :=
  (W8_of_ne m ρ c main_arg7 (by decide)).trans ((W7_of_ne m ρ c main_arg7 (by decide)).trans ((W6_keep_arg7 m ρ c).trans ((W5_of_ne m ρ c main_arg7 (by decide)).trans (W4_of_ne m ρ c main_arg7 (by decide)))))

/-- `main_arg9` is carried unchanged from region 0's entry to the boundary `W10`, where it is read. -/
theorem W10_arg9 (c : Dev nD) : W10 m ρ c (Proc.devRef .tc main_arg9) = W3 m ρ c (Proc.devRef .tc main_arg9) :=
  (W10_of_ne m ρ c main_arg9 (by decide)).trans ((W9_keep_arg9 m ρ c).trans ((W8_of_ne m ρ c main_arg9 (by decide)).trans ((W7_of_ne m ρ c main_arg9 (by decide)).trans ((W6_keep_arg9 m ρ c).trans ((W5_of_ne m ρ c main_arg9 (by decide)).trans (W4_of_ne m ρ c main_arg9 (by decide)))))))

/-- `main_arg8` is carried unchanged from region 0's entry to the boundary `W11`, where it is read. -/
theorem W11_arg8 (c : Dev nD) : W11 m ρ c (Proc.devRef .tc main_arg8) = W3 m ρ c (Proc.devRef .tc main_arg8) :=
  (W11_keep_arg8 m ρ c).trans ((W10_of_ne m ρ c main_arg8 (by decide)).trans ((W9_keep_arg8 m ρ c).trans ((W8_of_ne m ρ c main_arg8 (by decide)).trans ((W7_of_ne m ρ c main_arg8 (by decide)).trans ((W6_keep_arg8 m ρ c).trans ((W5_of_ne m ρ c main_arg8 (by decide)).trans (W4_of_ne m ρ c main_arg8 (by decide))))))))

end Cert.KernelIdeal.Val

end
-- ==== Proof.KernelRows.lean ====
/-
  The kernel program hands each bias to its region as a one-row matrix: the host reshapes the vector of 64 (or 16)
  entries to shape [1, 64] (or [1, 16]). Read at an index, that row holds `b[j]` at column `j`.
-/
import proofs.«103870_j48739288875467_1_alg».proof.Proof.Gen.KernelIdeal
import proofs.«103870_j48739288875467_1_alg».proof.Proof.Spec
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx

/-- A vector of 64 entries reshaped to one row is that row: the index `(u, j)` of the row, written by its two
coordinates, has row-major position `u · 64 + j = j` since `u = 0`, the position of `j` in the vector. -/
theorem reshape64_eq (b : FVec Ideal S64 .f32) :
    (shapeCast S1x64 b shapeCasts_S64_S1x64 : FVec Ideal S1x64 .f32) = Cert.Gcn.asRow64 b := by
  funext i
  exact (congrArg (shapeCast S1x64 b shapeCasts_S64_S1x64) (eq_ix2 i)).trans
    (shapeCast_a_1a_apply b shapeCasts_S64_S1x64 (i 0) (i 1))

/-- A vector of 16 entries reshaped to one row is that row: the index `(u, j)` of the row has row-major position
`u · 16 + j = j`, the position of `j` in the vector. -/
theorem reshape16_eq (b : FVec Ideal S16 .f32) :
    (shapeCast S1x16 b shapeCasts_S16_S1x16 : FVec Ideal S1x16 .f32) = Cert.Gcn.asRow16 b := by
  funext i
  exact (congrArg (shapeCast S1x16 b shapeCasts_S16_S1x16) (eq_ix2 i)).trans
    (shapeCast_a_1a_apply b shapeCasts_S16_S1x16 (i 0) (i 1))

end Cert.KernelIdeal.Val

end
-- ==== Proof.Region0.lean ====
/-
  Region 0, the first dense layer. Each of its ten grid points takes 10000 rows of the node features, the whole 32 × 64 weight and the one-row bias, and writes the 10000 corresponding rows of `relu (x · w + b)`; the ten blocks tile the 100000 rows, so the array the region leaves is that function of the arrays it found.
-/
import proofs.«103870_j48739288875467_1_alg».proof.Proof.Gen.KernelIdeal.Frame
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The product of a block of rows with the whole weight, entry by entry -/

/-- The left operand of the product is read at the output's row. -/
theorem lhs_lin0_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- The left operand's column is the summation index. -/
theorem lhs_lin0_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
/-- The right operand's row is the summation index. -/
theorem rhs_lin0_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
/-- The right operand is read at the output's column. -/
theorem rhs_lin0_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The product into a zero accumulator, at row p and column q, is the sum over k of a[p, k] · b[k, q]. -/
theorem lin0_product_apply (a : FVec Ideal S10000x32 .bf16) (b : FVec Ideal S32x64 .bf16) (p : Fin 10000) (q : Fin 64) :
    matmul dot_S10000x32_S32x64_S10000x64_1_0_0_1_n_n none a b (constant (F := Ideal) S10000x64 .f32 0x00000000#32) (ix2 p q)
      = ∑ k : Fin 32, a (ix2 p k) * b (ix2 k q) := by
  show FloatOps.matmul dot_S10000x32_S32x64_S10000x64_1_0_0_1_n_n none a b (constant (F := Ideal) S10000x64 .f32 0x00000000#32) (ix2 p q) = _
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx (ix2 p q) ((ValueIdx.contrEquiv1 dot_S10000x32_S32x64_S10000x64_1_0_0_1_n_n 32 rfl rfl).symm k) = ix2 p k := funext fun a => Fin.ext (by
    match a with
    | ⟨0, _⟩ => exact lhs_lin0_0 _ _
    | ⟨1, _⟩ => exact (lhs_lin0_1 _ _).trans hk)
  have er : dot_S10000x32_S32x64_S10000x64_1_0_0_1_n_n.rhsIdx (ix2 p q) ((ValueIdx.contrEquiv1 dot_S10000x32_S32x64_S10000x64_1_0_0_1_n_n 32 rfl rfl).symm k) = ix2 k q := funext fun a => Fin.ext (by
    match a with
    | ⟨0, _⟩ => exact (rhs_lin0_0 _ _).trans hk
    | ⟨1, _⟩ => exact rhs_lin0_1 _ _)
  rw [el, er]

/-- What the body stores at row p, column q of its block: the maximum of (the sum over k of x[p, k] · w[k, q]) + b[0, q] and zero. -/
theorem lin0_payload_apply (x0 : Vec Ideal S10000x32 .f32) (x1 : Vec Ideal S32x64 .f32) (x2 : Vec Ideal S1x64 .f32) (p : Fin 10000) (q : Fin 64) :
    (k0_pay1 (F := Ideal) x0 x1 x2) (ix2 p q)
      = max ((∑ k : Fin 32, x0 (ix2 p k) * x1 (ix2 k q)) + x2 (ix2 (0 : Fin 1) q)) (Ideal.ofBits .f32 0x00000000#32) := by
  unfold k0_pay1
  show max (matmul dot_S10000x32_S32x64_S10000x64_1_0_0_1_n_n none (truncf .bf16 x0 bitsLt_bf16_f32) (truncf .bf16 x1 bitsLt_bf16_f32) (constant (F := Ideal) S10000x64 .f32 0x00000000#32) (ix2 p q)
      + broadcastTo S10000x64 (shapeCast S1x64 x2 shapeCasts_S1x64_S1x64) broadcasts_S1x64_S10000x64 (ix2 p q)) (Ideal.ofBits .f32 0x00000000#32) = _
  rw [lin0_product_apply, shapeCast_self, broadcastTo_1b_ab_apply]
  rfl

/-- The specification at row r, column q: the maximum of (the sum over k of A[r, k] · W[k, q]) + B[0, q] and zero. -/
theorem lin0_spec_apply (A : Cert.Gcn.Mat 100000 32) (W : Cert.Gcn.Mat 32 64) (B : Cert.Gcn.Mat 1 64) (r : Fin 100000) (q : Fin 64) :
    Cert.Gcn.relu64 (Cert.Gcn.addRow64 (Cert.Gcn.lin32 A W) B) (ix2 r q)
      = max ((∑ k : Fin 32, A (ix2 r k) * W (ix2 k q)) + B (ix2 (0 : Fin 1) q)) (Ideal.ofBits .f32 0x00000000#32) := rfl

/-! ## The blocks the body reads, as entries of the arrays the region found -/

/-- The zero offsets of a whole-block access. -/
theorem lin0_offsets_zero : (![0, 0] : Fin 2 → Nat) = fun _ => 0 := funext fun a => by fin_cases a <;> rfl

/-- The index maps over the ten grid points: the row blocks of the input and of the output sit at block row t,
    column block 0; the weight and the bias are whole (block (0, 0)) at every point. -/
theorem lin0_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- Every one of the ten row blocks of the output is some grid point's. -/
theorem lin0_index_onto : ∀ b : Fin 10, ∃ t : Fin cfg0.N, win0_3.index t = ![b.val, 0] :=
  (by decide +kernel : ∀ b : Fin 10, ∃ t : Fin grid0.N, win0_3.index t = ![b.val, 0])

/-- The input block at point t holds rows 10000·t … 10000·t + 9999 of the node features. -/
theorem lin0_rows_read (c : Dev nD) (t : Fin cfg0.N) (y : S10000x32.Idx) (i : S100000x32.Idx)
    (h0 : (i 0).val = 10000 * t.val + (y 0).val) (h1 : (i 1).val = (y 1).val) :
    (iblk0 V c 0 t : Vec Ideal S10000x32 .f32) y = (V c main_arg0 : S100000x32.Idx → EReal) i := by
  obtain ⟨e0, e1, -⟩ := lin0_index_facts t
  show V c main_arg0 (((cfg0.win 0).blk t).view.emb y) = V c main_arg0 i
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 32 + 1 * (y 1).val = (i 1).val; omega

/-- The weight's block at every point is the whole weight. -/
theorem lin0_weight_read (c : Dev nD) (t : Fin cfg0.N) (y : S32x64.Idx) :
    (iblk0 V c 1 t : Vec Ideal S32x64 .f32) y = (V c main_arg2 : S32x64.Idx → EReal) y := by
  obtain ⟨-, -, e0, e1, -⟩ := lin0_index_facts t
  show V c main_arg2 (((cfg0.win 1).blk t).view.emb y) = V c main_arg2 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The bias's block at every point is the whole one-row bias. -/
theorem lin0_bias_read (c : Dev nD) (t : Fin cfg0.N) (y : S1x64.Idx) :
    (iblk0 V c 2 t : Vec Ideal S1x64 .f32) y = (V c main_v30 : S1x64.Idx → EReal) y := by
  obtain ⟨-, -, -, -, e0, e1, -⟩ := lin0_index_facts t
  show V c main_v30 (((cfg0.win 2).blk t).view.emb y) = V c main_v30 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-! ## From the blocks to the array -/

/-- What point t writes back is block t of the rectified affine map of the arrays the region found. -/
theorem lin0_flushed (c : Dev nD) (t : Fin cfg0.N) :
    (dat0 V c).flushed 3 t = ((cfg0.win 3).blk t).view.read (Elt Ideal)
      (Cert.Gcn.relu64 (Cert.Gcn.addRow64 (Cert.Gcn.lin32 (V c main_arg0) (V c main_arg2)) (V c main_v30))) := by
  show (cfg0.win 3).cut (grid0.coords t) ((dat0 V c).after 3 t) = _
  rw [after0_3]
  unfold out0_3
  rw [View.canon_unit_zero lin0_offsets_zero]
  simp only [View.ld_unit_zero (S := S10000x32) lin0_offsets_zero, View.ld_unit_zero (S := S32x64) lin0_offsets_zero, View.ld_unit_zero (S := S1x64) lin0_offsets_zero]
  obtain ⟨-, -, -, -, -, -, e0, e1, ht⟩ := lin0_index_facts t
  funext j
  obtain ⟨p, q, rfl⟩ : ∃ (p : Fin 10000) (q : Fin 64), j = ix2 p q := ⟨j 0, j 1, eq_ix2 j⟩
  have hi : ((cfg0.win 3).blk t).view.emb (ix2 p q) = (ix2 (⟨10000 * t.val + p.val, by omega⟩ : Fin 100000) q : S100000x64.Idx) := by
    funext a; apply Fin.ext
    match a with
    | ⟨0, _⟩ => show win0_3.index t (0 : Fin 2) * 10000 + 1 * p.val = 10000 * t.val + p.val; omega
    | ⟨1, _⟩ => show win0_3.index t (1 : Fin 2) * 64 + 1 * q.val = q.val; omega
  refine (lin0_payload_apply _ _ _ p q).trans ?_
  show _ = Cert.Gcn.relu64 (Cert.Gcn.addRow64 (Cert.Gcn.lin32 (V c main_arg0) (V c main_arg2)) (V c main_v30)) (((cfg0.win 3).blk t).view.emb (ix2 p q))
  rw [hi]
  refine Eq.trans ?_ (lin0_spec_apply _ _ _ _ q).symm
  refine congrArg₂ max (congrArg₂ (· + ·) (Finset.sum_congr rfl fun k _ => ?_) (lin0_bias_read V c t _)) rfl
  exact congrArg₂ (· * ·) (lin0_rows_read V c t _ _ rfl rfl) (lin0_weight_read V c t _)

/-- An index of the output array is in point t's block iff each coordinate is in the block's range on its axis. -/
theorem lin0_mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v31).slice (win0_3.rect t)).set ↔ _
  rw [View.set_slice_whole, Rect.mem_set_unit]
  exact Iff.rfl

/-- The ten row blocks tile the 100000 rows: row r is in the block of the point r / 10000. -/
theorem lin0_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := lin0_index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [lin0_mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The array the region leaves in its output window is the rectified affine map of the three arrays it found. -/
theorem region0_final (c : Dev nD) :
    (dat0 V c).arrAt 3 cfg0.N = Cert.Gcn.relu64 (Cert.Gcn.addRow64 (Cert.Gcn.lin32 (V c main_arg0) (V c main_arg2)) (V c main_v30)) :=
  (dat0 V c).arrAt_eq_of_cover 3 _ (fun t _ => lin0_flushed V c t) lin0_cover

end Cert.KernelIdeal.Val

end
-- ==== Proof.Region1.lean ====
/-
  Region 1, the first 64 × 64 product. Each of its ten grid points takes 10000 rows of the hidden features and the whole weight and writes the 10000 corresponding rows of `h · w`; the ten blocks tile the 100000 rows, so the array the region leaves is that product of the arrays it found.
-/
import proofs.«103870_j48739288875467_1_alg».proof.Proof.Gen.KernelIdeal.Frame
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The offsets of a whole-buffer access are all zero. -/
theorem zeroOffsets1 : (![0, 0] : Fin 2 → Nat) = fun _ => 0 :=
  funext fun a => by match a with | ⟨0, _⟩ => rfl | ⟨1, _⟩ => rfl

/-- The left operand of the product is read at the output's row. -/
theorem prod1_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand of the product is read at the summation index along its columns. -/
theorem prod1_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand of the product is read at the summation index along its rows. -/
theorem prod1_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand of the product is read at the output's column. -/
theorem prod1_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's arithmetic at an entry: entry `(p, q)` of the block it stores is `∑ k, x0[p, k] · x1[k, q]`. -/
theorem pay1_apply (x0 : Vec Ideal S10000x64 .f32) (x1 : Vec Ideal S64x64 .f32) (p : Fin 10000) (q : Fin 64) :
    (k1_pay1 (F := Ideal) x0 x1) (ix2 p q) = ∑ k : Fin 64, x0 (ix2 p k) * x1 (ix2 k q) := by
  unfold k1_pay1
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact prod1_lhs_0 _ _
    | ⟨1, _⟩ => exact (prod1_lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (prod1_rhs_0 _ _).trans hk
    | ⟨1, _⟩ => exact prod1_rhs_1 _ _)
  rw [el, er, shapeCast_self]
  rfl

/-- The printed index maps over the grid: point `t` reads and writes row block `t` and column block 0, and the weight is its one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point `t` holds rows `10000 t, …, 10000 t + 9999` of the feature array. -/
theorem rows1_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v31 : Vec Ideal S100000x64 .f32) i := by
  obtain ⟨e0, e1, -, -, -, -⟩ := blockIdx1 t
  show V c main_v31 (((cfg1.win 0).blk t).view.emb y) = V c main_v31 i
  refine congrArg _ (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The weight window's block at every point is the whole weight. -/
theorem weight1_eq (c : Dev nD) (t : Fin cfg1.N) :
    (iblk1 V c 1 t : Vec Ideal S64x64 .f32) = (V c main_arg4 : Vec Ideal S64x64 .f32) := by
  obtain ⟨-, -, e2, e3, -, -⟩ := blockIdx1 t
  funext y
  show V c main_arg4 (((cfg1.win 1).blk t).view.emb y) = V c main_arg4 y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- One grid point: if the left block is rows `10000 n …` of `A` and the right block is `W`, the entry the body stores
    at `j` is the entry of `A · W` at row `10000 n + j₀`, column `j₁`. -/
theorem point1 (A : Vec Ideal S100000x64 .f32) (W : Vec Ideal S64x64 .f32) (x0 : Vec Ideal S10000x64 .f32)
    (x1 : Vec Ideal S64x64 .f32) (n : Nat)
    (h0 : ∀ (y : S10000x64.Idx) (i : S100000x64.Idx), (i 0).val = n * 10000 + (y 0).val → (i 1).val = (y 1).val → x0 y = A i)
    (h1 : x1 = W) (j : S10000x64.Idx) (i : S100000x64.Idx)
    (hi0 : (i 0).val = n * 10000 + (j 0).val) (hi1 : (i 1).val = (j 1).val) :
    k1_pay1 (F := Ideal) x0 x1 j = Cert.Gcn.lin64 A W i := by
  obtain ⟨p, q, rfl⟩ : ∃ (p : Fin 10000) (q : Fin 64), j = ix2 p q := ⟨j 0, j 1, eq_ix2 j⟩
  have hq : Cert.Gcn.colOf i = q := Fin.ext hi1
  rw [pay1_apply, h1]
  unfold Cert.Gcn.lin64
  rw [hq]
  refine Finset.sum_congr rfl fun k _ => ?_
  rw [h0 (ix2 p k) (ix2 (Cert.Gcn.rowOf i) k) hi0 rfl]

/-- What point `t` writes back is block `t` of the product of the two arrays the region found. -/
theorem flushed1_eq (c : Dev nD) (t : Fin cfg1.N) :
    (dat1 V c).flushed 2 t = ((cfg1.win 2).blk t).view.read (Elt Ideal) (Cert.Gcn.lin64 (V c main_v31) (V c main_arg4)) := by
  show (cfg1.win 2).cut (grid1.coords t) ((dat1 V c).after 2 t) = _
  rw [after1_2]
  unfold out1_2
  rw [View.canon_unit_zero zeroOffsets1]
  simp only [View.ld_unit_zero (S := S10000x64) zeroOffsets1, View.ld_unit_zero (S := S64x64) zeroOffsets1]
  obtain ⟨-, -, -, -, e4, e5⟩ := blockIdx1 t
  funext j
  refine point1 (V c main_v31) (V c main_arg4) (iblk1 V c 0 t) (iblk1 V c 1 t) t.val
    (fun y i h0 h1 => rows1_apply V c t y i h0 h1) (weight1_eq V c t) j (((cfg1.win 2).blk t).view.emb j) ?_ ?_
  · show win1_2.index t (0 : Fin 2) * 10000 + 1 * (j 0).val = t.val * 10000 + (j 0).val; omega
  · show win1_2.index t (1 : Fin 2) * 64 + 1 * (j 1).val = (j 1).val; omega

/-- An index of the output array is in point `t`'s block iff each coordinate is in the block's range on its axis. -/
theorem mem_rows1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v32).slice (win1_2.rect t)).set ↔ _
  rw [View.set_slice_whole, Rect.mem_set_unit]
  exact Iff.rfl

/-- The ten row blocks tile the 100000 rows: row `r` is in the block of point `r / 10000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, e4, e5⟩ := blockIdx1 t
  refine ⟨t, flush1_2 t, ?_⟩
  rw [mem_rows1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array the region leaves in its output window is the product of the feature array and the weight it found. -/
theorem region1_final (c : Dev nD) :
    (dat1 V c).arrAt 2 cfg1.N = Cert.Gcn.lin64 (V c main_v31) (V c main_arg4) :=
  (dat1 V c).arrAt_eq_of_cover 2 (Cert.Gcn.lin64 (V c main_v31) (V c main_arg4)) (fun t _ => flushed1_eq V c t) cover1

end Cert.KernelIdeal.Val

end
-- ==== Proof.Region2.lean ====
/-
  Region 2, bias and rectifier after the first aggregation. Each of its ten grid points takes 10000 rows and the one-row bias and writes `relu (s + b)` on those rows; the ten blocks tile the 100000 rows.
-/
import proofs.«103870_j48739288875467_1_alg».proof.Proof.Gen.KernelIdeal.Frame
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The zero offsets of a whole-buffer access, as the constant function. -/
theorem zeroOffsets2 : (![0, 0] : Fin 2 → Nat) = fun _ => 0 :=
  funext fun a => by match a with | ⟨0, _⟩ => rfl | ⟨1, _⟩ => rfl

/-- The step's arithmetic at row `p`, column `q` of a block: the maximum of `x (p, q) + y (0, q)` and the real of the zero word. -/
theorem biasRelu2_apply (x : Vec Ideal S10000x64 .f32) (y : Vec Ideal S1x64 .f32) (p : Fin 10000) (q : Fin 64) :
    k2_pay1 (F := Ideal) x y (ix2 p q)
      = max (x (ix2 p q) + y (ix2 (0 : Fin 1) q)) (Ideal.ofBits .f32 0x00000000#32) := by
  unfold k2_pay1
  show max (shapeCast S10000x64 x shapeCasts_S10000x64_S10000x64 (ix2 p q)
      + broadcastTo S10000x64 (shapeCast S1x64 y shapeCasts_S1x64_S1x64) broadcasts_S1x64_S10000x64 (ix2 p q))
      (Ideal.ofBits .f32 0x00000000#32) = _
  rw [shapeCast_self, shapeCast_self, broadcastTo_1b_ab_apply]

/-- One grid step against the whole arrays: when the staged rows `x` are the rows of `s` that `e` names (and `e`
    keeps the column) and the staged bias is `b` itself, the step stores `relu (s + b)` read at the rows `e` names. -/
theorem biasRelu2_step (s : Cert.Gcn.Mat 100000 64) (b : Cert.Gcn.Mat 1 64)
    (x : Vec Ideal S10000x64 .f32) (y : Vec Ideal S1x64 .f32) (e : S10000x64.Idx → S100000x64.Idx)
    (hx : ∀ j, x j = s (e j)) (hy : y = b) (he : ∀ j, (e j 1).val = (j 1).val) :
    k2_pay1 (F := Ideal) x y = fun j => Cert.Gcn.relu64 (Cert.Gcn.addRow64 s b) (e j) := by
  funext j
  obtain ⟨p, q, rfl⟩ : ∃ (p : Fin 10000) (q : Fin 64), j = ix2 p q := ⟨j 0, j 1, eq_ix2 j⟩
  rw [biasRelu2_apply, hx, hy]
  show _ = max (s (e (ix2 p q)) + b (ix2 (0 : Fin 1) (Cert.Gcn.colOf (e (ix2 p q))))) (Ideal.ofBits .f32 0x00000000#32)
  have hq : Cert.Gcn.colOf (e (ix2 p q)) = q := Fin.ext (he (ix2 p q))
  rw [hq]

/-- The printed index maps, decided over the grid: the row windows (0 and the output) sit at row block `t`, column
    block 0; the bias window sits at block (0, 0) throughout. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of `relu (s + b)` of the two arrays the region finds. -/
theorem flushed2_eq (c : Dev nD) (t : Fin cfg2.N) :
    (dat2 V c).flushed 2 t = ((cfg2.win 2).blk t).view.read (Elt Ideal)
      (Cert.Gcn.relu64 (Cert.Gcn.addRow64 (V c main_v45) (V c main_v46))) := by
  show (cfg2.win 2).cut (grid2.coords t) ((dat2 V c).after 2 t) = _
  rw [after2_2]
  unfold out2_2
  rw [View.canon_unit_zero zeroOffsets2]
  simp only [View.ld_unit_zero (S := S10000x64) zeroOffsets2, View.ld_unit_zero (S := S1x64) zeroOffsets2]
  obtain ⟨e00, e01, e10, e11, e20, e21⟩ := blockIndex2 t
  show k2_pay1 (F := Ideal) (iblk2 V c 0 t) (iblk2 V c 1 t)
    = fun j => Cert.Gcn.relu64 (Cert.Gcn.addRow64 (V c main_v45) (V c main_v46)) (((cfg2.win 2).blk t).view.emb j)
  refine biasRelu2_step (V c main_v45) (V c main_v46) (iblk2 V c 0 t) (iblk2 V c 1 t) (((cfg2.win 2).blk t).view.emb) ?_ ?_ ?_
  · intro j
    show V c main_v45 (((cfg2.win 0).blk t).view.emb j) = V c main_v45 (((cfg2.win 2).blk t).view.emb j)
    refine congrArg (V c main_v45) (funext fun a => Fin.ext ?_)
    match a with
    | ⟨0, _⟩ =>
      show win2_0.index t (0 : Fin 2) * 10000 + 1 * (j 0).val = win2_2.index t (0 : Fin 2) * 10000 + 1 * (j 0).val
      rw [e00, e20]
    | ⟨1, _⟩ =>
      show win2_0.index t (1 : Fin 2) * 64 + 1 * (j 1).val = win2_2.index t (1 : Fin 2) * 64 + 1 * (j 1).val
      rw [e01, e21]
  · funext y
    show V c main_v46 (((cfg2.win 1).blk t).view.emb y) = V c main_v46 y
    refine congrArg (V c main_v46) (funext fun a => Fin.ext ?_)
    match a with
    | ⟨0, _⟩ =>
      show win2_1.index t (0 : Fin 2) * 1 + 1 * (y 0).val = (y 0).val
      rw [e10]; omega
    | ⟨1, _⟩ =>
      show win2_1.index t (1 : Fin 2) * 64 + 1 * (y 1).val = (y 1).val
      rw [e11]; omega
  · intro j
    show win2_2.index t (1 : Fin 2) * 64 + 1 * (j 1).val = (j 1).val
    rw [e21]; omega

/-- An index of the array is in point `t`'s block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v47).slice (win2_2.rect t)).set ↔ _
  rw [View.set_slice_whole, Rect.mem_set_unit]
  exact Iff.rfl

/-- The ten row blocks cover the array: row `r` lies in the block of the point `r / 10000`, which writes back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := rfl
  obtain ⟨t, ht⟩ : ∃ t : Fin cfg2.N, t.val = (i 0).val / 10000 := ⟨⟨(i 0).val / 10000, by rw [hN]; omega⟩, rfl⟩
  obtain ⟨-, -, -, -, e20, e21⟩ := blockIndex2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- THE ARRAY the region leaves in its output window: `relu (s + b)` of the two arrays it found, on every row. -/
theorem region2_final (c : Dev nD) :
    (dat2 V c).arrAt 2 cfg2.N = Cert.Gcn.relu64 (Cert.Gcn.addRow64 (V c main_v45) (V c main_v46)) :=
  (dat2 V c).arrAt_eq_of_cover 2 (Cert.Gcn.relu64 (Cert.Gcn.addRow64 (V c main_v45) (V c main_v46)))
    (fun t _ => flushed2_eq V c t) cover2

end Cert.KernelIdeal.Val

end
-- ==== Proof.Region3.lean ====
/-
  Region 3, the second 64 × 64 product: rows of `h · w`, 10000 at a grid point, the ten blocks tiling the 100000 rows.
-/
import proofs.«103870_j48739288875467_1_alg».proof.Proof.Gen.KernelIdeal.Frame
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The offsets of a whole-buffer access are all zero. -/
theorem zeroOffsets3 : (![0, 0] : Fin 2 → Nat) = fun _ => 0 :=
  funext fun a => by match a with | ⟨0, _⟩ => rfl | ⟨1, _⟩ => rfl

/-- The left operand of the product is read at the output's row. -/
theorem prod3_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand of the product is read at the summation index along its columns. -/
theorem prod3_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand of the product is read at the summation index along its rows. -/
theorem prod3_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand of the product is read at the output's column. -/
theorem prod3_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's arithmetic at an entry: entry `(p, q)` of the block it stores is `∑ k, x0[p, k] · x1[k, q]`. -/
theorem pay3_apply (x0 : Vec Ideal S10000x64 .f32) (x1 : Vec Ideal S64x64 .f32) (p : Fin 10000) (q : Fin 64) :
    (k3_pay1 (F := Ideal) x0 x1) (ix2 p q) = ∑ k : Fin 64, x0 (ix2 p k) * x1 (ix2 k q) := by
  unfold k3_pay1
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact prod3_lhs_0 _ _
    | ⟨1, _⟩ => exact (prod3_lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (prod3_rhs_0 _ _).trans hk
    | ⟨1, _⟩ => exact prod3_rhs_1 _ _)
  rw [el, er, shapeCast_self]
  rfl

/-- The printed index maps over the grid: point `t` reads and writes row block `t` and column block 0, and the weight is its one block. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The feature window's block at point `t` holds rows `10000 t, …, 10000 t + 9999` of the feature array. -/
theorem rows3_apply (c : Dev nD) (t : Fin cfg3.N) (y : S10000x64.Idx) (i : S100000x64.Idx)
    (h0 : (i 0).val = t.val * 10000 + (y 0).val) (h1 : (i 1).val = (y 1).val) :
    (iblk3 V c 0 t : Vec Ideal S10000x64 .f32) y = (V c main_v47 : Vec Ideal S100000x64 .f32) i := by
  obtain ⟨e0, e1, -, -, -, -⟩ := blockIdx3 t
  show V c main_v47 (((cfg3.win 0).blk t).view.emb y) = V c main_v47 i
  refine congrArg _ (funext fun a => Fin.ext ?_)
  match a with
  | ⟨0, _⟩ => show win3_0.index t (0 : Fin 2) * 10000 + 1 * (y 0).val = (i 0).val; omega
  | ⟨1, _⟩ => show win3_0.index t (1 : Fin 2) * 64 + 1 * (y 1).val = (i 1).val; omega

/-- The weight window's block at every point is the whole weight. -/
theorem weight3_eq (c : Dev nD) (t : Fin cfg3.N) :
    (iblk3 V c 1 t : Vec Ideal S64x64 .f32) = (V c main_arg6 : Vec Ideal S64x64 .f32) := by
  obtain ⟨-, -, e2, e3, -, -⟩ := blockIdx3 t
  funext y
  show V c main_arg6 (((cfg3.win 1).blk t).view.emb y) = V c main_arg6 y
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- One grid point: if the left block is rows `10000 n …` of `A` and the right block is `W`, the entry the body stores
    at `j` is the entry of `A · W` at row `10000 n + j₀`, column `j₁`. -/
theorem point3 (A : Vec Ideal S100000x64 .f32) (W : Vec Ideal S64x64 .f32) (x0 : Vec Ideal S10000x64 .f32)
    (x1 : Vec Ideal S64x64 .f32) (n : Nat)
    (h0 : ∀ (y : S10000x64.Idx) (i : S100000x64.Idx), (i 0).val = n * 10000 + (y 0).val → (i 1).val = (y 1).val → x0 y = A i)
    (h1 : x1 = W) (j : S10000x64.Idx) (i : S100000x64.Idx)
    (hi0 : (i 0).val = n * 10000 + (j 0).val) (hi1 : (i 1).val = (j 1).val) :
    k3_pay1 (F := Ideal) x0 x1 j = Cert.Gcn.lin64 A W i := by
  obtain ⟨p, q, rfl⟩ : ∃ (p : Fin 10000) (q : Fin 64), j = ix2 p q := ⟨j 0, j 1, eq_ix2 j⟩
  have hq : Cert.Gcn.colOf i = q := Fin.ext hi1
  rw [pay3_apply, h1]
  unfold Cert.Gcn.lin64
  rw [hq]
  refine Finset.sum_congr rfl fun k _ => ?_
  rw [h0 (ix2 p k) (ix2 (Cert.Gcn.rowOf i) k) hi0 rfl]

/-- What point `t` writes back is block `t` of the product of the two arrays the region found. -/
theorem flushed3_eq (c : Dev nD) (t : Fin cfg3.N) :
    (dat3 V c).flushed 2 t = ((cfg3.win 2).blk t).view.read (Elt Ideal) (Cert.Gcn.lin64 (V c main_v47) (V c main_arg6)) := by
  show (cfg3.win 2).cut (grid3.coords t) ((dat3 V c).after 2 t) = _
  rw [after3_2]
  unfold out3_2
  rw [View.canon_unit_zero zeroOffsets3]
  simp only [View.ld_unit_zero (S := S10000x64) zeroOffsets3, View.ld_unit_zero (S := S64x64) zeroOffsets3]
  obtain ⟨-, -, -, -, e4, e5⟩ := blockIdx3 t
  funext j
  refine point3 (V c main_v47) (V c main_arg6) (iblk3 V c 0 t) (iblk3 V c 1 t) t.val
    (fun y i h0 h1 => rows3_apply V c t y i h0 h1) (weight3_eq V c t) j (((cfg3.win 2).blk t).view.emb j) ?_ ?_
  · show win3_2.index t (0 : Fin 2) * 10000 + 1 * (j 0).val = t.val * 10000 + (j 0).val; omega
  · show win3_2.index t (1 : Fin 2) * 64 + 1 * (j 1).val = (j 1).val; omega

/-- An index of the output array is in point `t`'s block iff each coordinate is in the block's range on its axis. -/
theorem mem_rows3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v48).slice (win3_2.rect t)).set ↔ _
  rw [View.set_slice_whole, Rect.mem_set_unit]
  exact Iff.rfl

/-- The ten row blocks tile the 100000 rows: row `r` is in the block of point `r / 10000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, e4, e5⟩ := blockIdx3 t
  refine ⟨t, flush3_2 t, ?_⟩
  rw [mem_rows3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array the region leaves in its output window is the product of the feature array and the weight it found. -/
theorem region3_final (c : Dev nD) :
    (dat3 V c).arrAt 2 cfg3.N = Cert.Gcn.lin64 (V c main_v47) (V c main_arg6) :=
  (dat3 V c).arrAt_eq_of_cover 2 (Cert.Gcn.lin64 (V c main_v47) (V c main_arg6)) (fun t _ => flushed3_eq V c t) cover3

end Cert.KernelIdeal.Val

end
-- ==== Proof.Region4.lean ====
/-
  Region 4, bias and rectifier after the second aggregation: `relu (s + b)`, 10000 rows at a grid point, the ten blocks tiling the 100000 rows.
-/
import proofs.«103870_j48739288875467_1_alg».proof.Proof.Gen.KernelIdeal.Frame
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The zero offsets of a whole-buffer access, as the constant function. -/
theorem zeroOffsets4 : (![0, 0] : Fin 2 → Nat) = fun _ => 0 :=
  funext fun a => by match a with | ⟨0, _⟩ => rfl | ⟨1, _⟩ => rfl

/-- The step's arithmetic at row `p`, column `q` of a block: the maximum of `x (p, q) + y (0, q)` and the real of the zero word. -/
theorem biasRelu4_apply (x : Vec Ideal S10000x64 .f32) (y : Vec Ideal S1x64 .f32) (p : Fin 10000) (q : Fin 64) :
    k4_pay1 (F := Ideal) x y (ix2 p q)
      = max (x (ix2 p q) + y (ix2 (0 : Fin 1) q)) (Ideal.ofBits .f32 0x00000000#32) := by
  unfold k4_pay1
  show max (shapeCast S10000x64 x shapeCasts_S10000x64_S10000x64 (ix2 p q)
      + broadcastTo S10000x64 (shapeCast S1x64 y shapeCasts_S1x64_S1x64) broadcasts_S1x64_S10000x64 (ix2 p q))
      (Ideal.ofBits .f32 0x00000000#32) = _
  rw [shapeCast_self, shapeCast_self, broadcastTo_1b_ab_apply]

/-- One grid step against the whole arrays: when the staged rows `x` are the rows of `s` that `e` names (and `e`
    keeps the column) and the staged bias is `b` itself, the step stores `relu (s + b)` read at the rows `e` names. -/
theorem biasRelu4_step (s : Cert.Gcn.Mat 100000 64) (b : Cert.Gcn.Mat 1 64)
    (x : Vec Ideal S10000x64 .f32) (y : Vec Ideal S1x64 .f32) (e : S10000x64.Idx → S100000x64.Idx)
    (hx : ∀ j, x j = s (e j)) (hy : y = b) (he : ∀ j, (e j 1).val = (j 1).val) :
    k4_pay1 (F := Ideal) x y = fun j => Cert.Gcn.relu64 (Cert.Gcn.addRow64 s b) (e j) := by
  funext j
  obtain ⟨p, q, rfl⟩ : ∃ (p : Fin 10000) (q : Fin 64), j = ix2 p q := ⟨j 0, j 1, eq_ix2 j⟩
  rw [biasRelu4_apply, hx, hy]
  show _ = max (s (e (ix2 p q)) + b (ix2 (0 : Fin 1) (Cert.Gcn.colOf (e (ix2 p q))))) (Ideal.ofBits .f32 0x00000000#32)
  have hq : Cert.Gcn.colOf (e (ix2 p q)) = q := Fin.ext (he (ix2 p q))
  rw [hq]

/-- The printed index maps, decided over the grid: the row windows (0 and the output) sit at row block `t`, column
    block 0; the bias window sits at block (0, 0) throughout. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is block `t` of `relu (s + b)` of the two arrays the region finds. -/
theorem flushed4_eq (c : Dev nD) (t : Fin cfg4.N) :
    (dat4 V c).flushed 2 t = ((cfg4.win 2).blk t).view.read (Elt Ideal)
      (Cert.Gcn.relu64 (Cert.Gcn.addRow64 (V c main_v61) (V c main_v62))) := by
  show (cfg4.win 2).cut (grid4.coords t) ((dat4 V c).after 2 t) = _
  rw [after4_2]
  unfold out4_2
  rw [View.canon_unit_zero zeroOffsets4]
  simp only [View.ld_unit_zero (S := S10000x64) zeroOffsets4, View.ld_unit_zero (S := S1x64) zeroOffsets4]
  obtain ⟨e00, e01, e10, e11, e20, e21⟩ := blockIndex4 t
  show k4_pay1 (F := Ideal) (iblk4 V c 0 t) (iblk4 V c 1 t)
    = fun j => Cert.Gcn.relu64 (Cert.Gcn.addRow64 (V c main_v61) (V c main_v62)) (((cfg4.win 2).blk t).view.emb j)
  refine biasRelu4_step (V c main_v61) (V c main_v62) (iblk4 V c 0 t) (iblk4 V c 1 t) (((cfg4.win 2).blk t).view.emb) ?_ ?_ ?_
  · intro j
    show V c main_v61 (((cfg4.win 0).blk t).view.emb j) = V c main_v61 (((cfg4.win 2).blk t).view.emb j)
    refine congrArg (V c main_v61) (funext fun a => Fin.ext ?_)
    match a with
    | ⟨0, _⟩ =>
      show win4_0.index t (0 : Fin 2) * 10000 + 1 * (j 0).val = win4_2.index t (0 : Fin 2) * 10000 + 1 * (j 0).val
      rw [e00, e20]
    | ⟨1, _⟩ =>
      show win4_0.index t (1 : Fin 2) * 64 + 1 * (j 1).val = win4_2.index t (1 : Fin 2) * 64 + 1 * (j 1).val
      rw [e01, e21]
  · funext y
    show V c main_v62 (((cfg4.win 1).blk t).view.emb y) = V c main_v62 y
    refine congrArg (V c main_v62) (funext fun a => Fin.ext ?_)
    match a with
    | ⟨0, _⟩ =>
      show win4_1.index t (0 : Fin 2) * 1 + 1 * (y 0).val = (y 0).val
      rw [e10]; omega
    | ⟨1, _⟩ =>
      show win4_1.index t (1 : Fin 2) * 64 + 1 * (y 1).val = (y 1).val
      rw [e11]; omega
  · intro j
    show win4_2.index t (1 : Fin 2) * 64 + 1 * (j 1).val = (j 1).val
    rw [e21]; omega

/-- An index of the array is in point `t`'s block iff each coordinate is in the block's range on its axis. -/
theorem mem_block4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v63).slice (win4_2.rect t)).set ↔ _
  rw [View.set_slice_whole, Rect.mem_set_unit]
  exact Iff.rfl

/-- The ten row blocks cover the array: row `r` lies in the block of the point `r / 10000`, which writes back. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := rfl
  obtain ⟨t, ht⟩ : ∃ t : Fin cfg4.N, t.val = (i 0).val / 10000 := ⟨⟨(i 0).val / 10000, by rw [hN]; omega⟩, rfl⟩
  obtain ⟨-, -, -, -, e20, e21⟩ := blockIndex4 t
  refine ⟨t, flush4_2 t, ?_⟩
  rw [mem_block4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 64 ≤ (i 1).val ∧ (i 1).val < win4_2.index t (1 : Fin 2) * 64 + 64
    omega

/-- THE ARRAY the region leaves in its output window: `relu (s + b)` of the two arrays it found, on every row. -/
theorem region4_final (c : Dev nD) :
    (dat4 V c).arrAt 2 cfg4.N = Cert.Gcn.relu64 (Cert.Gcn.addRow64 (V c main_v61) (V c main_v62)) :=
  (dat4 V c).arrAt_eq_of_cover 2 (Cert.Gcn.relu64 (Cert.Gcn.addRow64 (V c main_v61) (V c main_v62)))
    (fun t _ => flushed4_eq V c t) cover4

end Cert.KernelIdeal.Val

end
-- ==== Proof.Region5.lean ====
/-
  Region 5, the last dense layer (64 → 16 features, no rectifier): rows of `h · w + b`, 10000 at a grid point, the ten blocks tiling the 100000 rows.
-/
import proofs.«103870_j48739288875467_1_alg».proof.Proof.Gen.KernelIdeal.Frame
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The product of a block of rows with the whole weight, entry by entry -/

/-- The left operand of the product is read at the output's row. -/
theorem lhs_lin5_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
/-- The left operand's column is the summation index. -/
theorem lhs_lin5_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
/-- The right operand's row is the summation index. -/
theorem rhs_lin5_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
/-- The right operand is read at the output's column. -/
theorem rhs_lin5_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The product into a zero accumulator, at row p and column q, is the sum over k of a[p, k] · b[k, q]. -/
theorem lin5_product_apply (a : FVec Ideal S10000x64 .bf16) (b : FVec Ideal S64x16 .bf16) (p : Fin 10000) (q : Fin 16) :
    matmul dot_S10000x64_S64x16_S10000x16_1_0_0_1_n_n none a b (constant (F := Ideal) S10000x16 .f32 0x00000000#32) (ix2 p q)
      = ∑ k : Fin 64, a (ix2 p k) * b (ix2 k q) := by
  show FloatOps.matmul dot_S10000x64_S64x16_S10000x16_1_0_0_1_n_n none a b (constant (F := Ideal) S10000x16 .f32 0x00000000#32) (ix2 p q) = _
  rw [Ideal.matmul_constant_zero_apply, ← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx (ix2 p q) ((ValueIdx.contrEquiv1 dot_S10000x64_S64x16_S10000x16_1_0_0_1_n_n 64 rfl rfl).symm k) = ix2 p k := funext fun a => Fin.ext (by
    match a with
    | ⟨0, _⟩ => exact lhs_lin5_0 _ _
    | ⟨1, _⟩ => exact (lhs_lin5_1 _ _).trans hk)
  have er : dot_S10000x64_S64x16_S10000x16_1_0_0_1_n_n.rhsIdx (ix2 p q) ((ValueIdx.contrEquiv1 dot_S10000x64_S64x16_S10000x16_1_0_0_1_n_n 64 rfl rfl).symm k) = ix2 k q := funext fun a => Fin.ext (by
    match a with
    | ⟨0, _⟩ => exact (rhs_lin5_0 _ _).trans hk
    | ⟨1, _⟩ => exact rhs_lin5_1 _ _)
  rw [el, er]

/-- What the body stores at row p, column q of its block: (the sum over k of x[p, k] · w[k, q]) + b[0, q]. -/
theorem lin5_payload_apply (x0 : Vec Ideal S10000x64 .f32) (x1 : Vec Ideal S64x16 .f32) (x2 : Vec Ideal S1x16 .f32) (p : Fin 10000) (q : Fin 16) :
    (k5_pay1 (F := Ideal) x0 x1 x2) (ix2 p q)
      = (∑ k : Fin 64, x0 (ix2 p k) * x1 (ix2 k q)) + x2 (ix2 (0 : Fin 1) q) := by
  unfold k5_pay1
  show matmul dot_S10000x64_S64x16_S10000x16_1_0_0_1_n_n none (truncf .bf16 (shapeCast S10000x64 x0 shapeCasts_S10000x64_S10000x64) bitsLt_bf16_f32) (truncf .bf16 x1 bitsLt_bf16_f32) (constant (F := Ideal) S10000x16 .f32 0x00000000#32) (ix2 p q)
      + broadcastTo S10000x16 (shapeCast S1x16 x2 shapeCasts_S1x16_S1x16) broadcasts_S1x16_S10000x16 (ix2 p q) = _
  rw [lin5_product_apply, shapeCast_self, shapeCast_self, broadcastTo_1b_ab_apply]
  rfl

/-- The specification at row r, column q: (the sum over k of A[r, k] · W[k, q]) + B[0, q]. -/
theorem lin5_spec_apply (A : Cert.Gcn.Mat 100000 64) (W : Cert.Gcn.Mat 64 16) (B : Cert.Gcn.Mat 1 16) (r : Fin 100000) (q : Fin 16) :
    Cert.Gcn.addRow16 (Cert.Gcn.lin16 A W) B (ix2 r q)
      = (∑ k : Fin 64, A (ix2 r k) * W (ix2 k q)) + B (ix2 (0 : Fin 1) q) := rfl

/-! ## The blocks the body reads, as entries of the arrays the region found -/

/-- The zero offsets of a whole-block access. -/
theorem lin5_offsets_zero : (![0, 0] : Fin 2 → Nat) = fun _ => 0 := funext fun a => by fin_cases a <;> rfl

/-- The index maps over the ten grid points: the row blocks of the input and of the output sit at block row t,
    column block 0; the weight and the bias are whole (block (0, 0)) at every point. -/
theorem lin5_index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 10 :=
  (by decide +kernel : ∀ t : Fin grid5.N, _)

/-- Every one of the ten row blocks of the output is some grid point's. -/
theorem lin5_index_onto : ∀ b : Fin 10, ∃ t : Fin cfg5.N, win5_3.index t = ![b.val, 0] :=
  (by decide +kernel : ∀ b : Fin 10, ∃ t : Fin grid5.N, win5_3.index t = ![b.val, 0])

/-- The input block at point t holds rows 10000·t … 10000·t + 9999 of the hidden features. -/
theorem lin5_rows_read (c : Dev nD) (t : Fin cfg5.N) (y : S10000x64.Idx) (i : S100000x64.Idx)
    (h0 : (i 0).val = 10000 * t.val + (y 0).val) (h1 : (i 1).val = (y 1).val) :
    (iblk5 V c 0 t : Vec Ideal S10000x64 .f32) y = (V c main_v63 : S100000x64.Idx → EReal) i := by
  obtain ⟨e0, e1, -⟩ := lin5_index_facts t
  show V c main_v63 (((cfg5.win 0).blk t).view.emb y) = V c main_v63 i
  refine congrArg _ (funext fun a => Fin.ext ?_)
  match a with
  | ⟨0, _⟩ => show win5_0.index t (0 : Fin 2) * 10000 + 1 * (y 0).val = (i 0).val; omega
  | ⟨1, _⟩ => show win5_0.index t (1 : Fin 2) * 64 + 1 * (y 1).val = (i 1).val; omega

/-- The weight's block at every point is the whole weight. -/
theorem lin5_weight_read (c : Dev nD) (t : Fin cfg5.N) (y : S64x16.Idx) :
    (iblk5 V c 1 t : Vec Ideal S64x16 .f32) y = (V c main_arg8 : S64x16.Idx → EReal) y := by
  obtain ⟨-, -, e0, e1, -⟩ := lin5_index_facts t
  show V c main_arg8 (((cfg5.win 1).blk t).view.emb y) = V c main_arg8 y
  refine congrArg _ (funext fun a => Fin.ext ?_)
  match a with
  | ⟨0, _⟩ => show win5_1.index t (0 : Fin 2) * 64 + 1 * (y 0).val = (y 0).val; omega
  | ⟨1, _⟩ => show win5_1.index t (1 : Fin 2) * 16 + 1 * (y 1).val = (y 1).val; omega

/-- The bias's block at every point is the whole one-row bias. -/
theorem lin5_bias_read (c : Dev nD) (t : Fin cfg5.N) (y : S1x16.Idx) :
    (iblk5 V c 2 t : Vec Ideal S1x16 .f32) y = (V c main_v64 : S1x16.Idx → EReal) y := by
  obtain ⟨-, -, -, -, e0, e1, -⟩ := lin5_index_facts t
  show V c main_v64 (((cfg5.win 2).blk t).view.emb y) = V c main_v64 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 16 + 1 * (y 1).val = (y 1).val; omega

/-! ## From the blocks to the array -/

/-- What point t writes back is block t of the affine map of the arrays the region found. -/
theorem lin5_flushed (c : Dev nD) (t : Fin cfg5.N) :
    (dat5 V c).flushed 3 t = ((cfg5.win 3).blk t).view.read (Elt Ideal)
      (Cert.Gcn.addRow16 (Cert.Gcn.lin16 (V c main_v63) (V c main_arg8)) (V c main_v64)) := by
  show (cfg5.win 3).cut (grid5.coords t) ((dat5 V c).after 3 t) = _
  rw [after5_3]
  unfold out5_3
  rw [View.canon_unit_zero lin5_offsets_zero]
  simp only [View.ld_unit_zero (S := S10000x64) lin5_offsets_zero, View.ld_unit_zero (S := S64x16) lin5_offsets_zero, View.ld_unit_zero (S := S1x16) lin5_offsets_zero]
  obtain ⟨-, -, -, -, -, -, e0, e1, ht⟩ := lin5_index_facts t
  funext j
  obtain ⟨p, q, rfl⟩ : ∃ (p : Fin 10000) (q : Fin 16), j = ix2 p q := ⟨j 0, j 1, eq_ix2 j⟩
  have hi : ((cfg5.win 3).blk t).view.emb (ix2 p q) = (ix2 (⟨10000 * t.val + p.val, by omega⟩ : Fin 100000) q : S100000x16.Idx) := by
    funext a; apply Fin.ext
    match a with
    | ⟨0, _⟩ => show win5_3.index t (0 : Fin 2) * 10000 + 1 * p.val = 10000 * t.val + p.val; omega
    | ⟨1, _⟩ => show win5_3.index t (1 : Fin 2) * 16 + 1 * q.val = q.val; omega
  refine (lin5_payload_apply _ _ _ p q).trans ?_
  show _ = Cert.Gcn.addRow16 (Cert.Gcn.lin16 (V c main_v63) (V c main_arg8)) (V c main_v64) (((cfg5.win 3).blk t).view.emb (ix2 p q))
  rw [hi]
  refine Eq.trans ?_ (lin5_spec_apply _ _ _ _ q).symm
  refine congrArg₂ (· + ·) (Finset.sum_congr rfl fun k _ => ?_) (lin5_bias_read V c t _)
  exact congrArg₂ (· * ·) (lin5_rows_read V c t _ _ rfl rfl) (lin5_weight_read V c t _)

/-- An index of the output array is in point t's block iff each coordinate is in the block's range on its axis. -/
theorem lin5_mem_block (t : Fin cfg5.N) (i : S100000x16.Idx) :
    i ∈ ((cfg5.win 3).blk t).view.set ↔ ∀ a : Fin 2, win5_3.index t a * S10000x16.size a ≤ (i a).val ∧ (i a).val < win5_3.index t a * S10000x16.size a + S10000x16.size a := by
  show i ∈ ((View.whole main_v65).slice (win5_3.rect t)).set ↔ _
  rw [View.set_slice_whole, Rect.mem_set_unit]
  exact Iff.rfl

/-- The ten row blocks tile the 100000 rows: row r is in the block of the point r / 10000. -/
theorem lin5_cover (i : S100000x16.Idx) :
    ∃ t : Fin cfg5.N, (cfg5.win 3).flush t = true ∧ i ∈ ((cfg5.win 3).blk t).view.set := by
  have hi0 : (i 0).val < 100000 := (i 0).isLt
  have hi1 : (i 1).val < 16 := (i 1).isLt
  obtain ⟨t, ht⟩ := lin5_index_onto ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [lin5_mem_block]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 16 ≤ (i 1).val ∧ (i 1).val < win5_3.index t (1 : Fin 2) * 16 + 16; omega

/-- The array the region leaves in its output window is the affine map of the three arrays it found. -/
theorem region5_final (c : Dev nD) :
    (dat5 V c).arrAt 3 cfg5.N = Cert.Gcn.addRow16 (Cert.Gcn.lin16 (V c main_v63) (V c main_arg8)) (V c main_v64) :=
  (dat5 V c).arrAt_eq_of_cover 3 _ (fun t _ => lin5_flushed V c t) lin5_cover

end Cert.KernelIdeal.Val

end
-- ==== Proof.KernelChain.lean ====
/-
  The kernel program's result as the network of the specification.

  Each region leaves its output array at its specification function of the arrays it found; each host stretch in
  between computes the aggregation of the last product, or reshapes a bias to one row; nothing else a region reads
  has been written since launch (KernelKeep.lean has those cases). Followed from the first region to the last, the result array at the return is
  `Cert.Gcn.net` over the aggregation `aggK` of the three edge arrays the first host stretch wrote.
-/
import proofs.«103870_j48739288875467_1_alg».proof.Proof.KernelHost
import proofs.«103870_j48739288875467_1_alg».proof.Proof.KernelKeep
import proofs.«103870_j48739288875467_1_alg».proof.Proof.KernelRows
import proofs.«103870_j48739288875467_1_alg».proof.Proof.Region0
import proofs.«103870_j48739288875467_1_alg».proof.Proof.Region1
import proofs.«103870_j48739288875467_1_alg».proof.Proof.Region2
import proofs.«103870_j48739288875467_1_alg».proof.Proof.Region3
import proofs.«103870_j48739288875467_1_alg».proof.Proof.Region4
import proofs.«103870_j48739288875467_1_alg».proof.Proof.Region5

set_option maxRecDepth 16384

noncomputable section

namespace Cert.KernelIdeal.Val

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg)

/-! ## The regions' results, one after the other -/

/-- Region 0 leaves the first hidden layer. -/
theorem W4_v31 (c : Dev nD) : W4 m ρ c (Proc.devRef .tc main_v31) = Cert.Gcn.hidden0 (m ((c : Thread nD τ).loc main_arg0)) (m ((c : Thread nD τ).loc main_arg2)) (m ((c : Thread nD τ).loc main_arg3)) := by
  refine (W4_arr m ρ c 3).trans ((region0_final (V3 m ρ) c).trans ?_)
  show Cert.Gcn.relu64 (Cert.Gcn.addRow64 (Cert.Gcn.lin32 (W3 m ρ c (Proc.devRef .tc main_arg0)) (W3 m ρ c (Proc.devRef .tc main_arg2))) (W3 m ρ c (Proc.devRef .tc main_v30))) = _
  rw [W3_arg0, W3_arg2, W3_v30, reshape64_eq]
  rfl

/-- Region 1 multiplies it by the first 64 × 64 weight. -/
theorem W5_v32 (c : Dev nD) : W5 m ρ c (Proc.devRef .tc main_v32) = Cert.Gcn.lin64 (Cert.Gcn.hidden0 (m ((c : Thread nD τ).loc main_arg0)) (m ((c : Thread nD τ).loc main_arg2)) (m ((c : Thread nD τ).loc main_arg3))) (m ((c : Thread nD τ).loc main_arg4)) := by
  refine (W5_arr m ρ c 2).trans ((region1_final (V4 m ρ) c).trans ?_)
  show Cert.Gcn.lin64 (W4 m ρ c (Proc.devRef .tc main_v31)) (W4 m ρ c (Proc.devRef .tc main_arg4)) = _
  rw [W4_v31, W4_arg4, W3_arg4]

/-- The first aggregation, over the edge arrays as the first stretch wrote them. -/
theorem W6_v45' (c : Dev nD) : W6 m ρ c (Proc.devRef .tc main_v45) = aggK (W3 m ρ c (Proc.devRef .tc main_v3)) (W3 m ρ c (Proc.devRef .tc main_v6)) (W3 m ρ c (Proc.devRef .tc main_v29)) (Cert.Gcn.lin64 (Cert.Gcn.hidden0 (m ((c : Thread nD τ).loc main_arg0)) (m ((c : Thread nD τ).loc main_arg2)) (m ((c : Thread nD τ).loc main_arg3))) (m ((c : Thread nD τ).loc main_arg4))) := by
  rw [W6_v45, W5_v3, W5_v6, W5_v29, W5_v32]

/-- Region 2 adds the bias row and rectifies: the first convolution round. -/
theorem W7_v47 (c : Dev nD) : W7 m ρ c (Proc.devRef .tc main_v47) = Cert.Gcn.conv (aggK (W3 m ρ c (Proc.devRef .tc main_v3)) (W3 m ρ c (Proc.devRef .tc main_v6)) (W3 m ρ c (Proc.devRef .tc main_v29))) (Cert.Gcn.hidden0 (m ((c : Thread nD τ).loc main_arg0)) (m ((c : Thread nD τ).loc main_arg2)) (m ((c : Thread nD τ).loc main_arg3))) (m ((c : Thread nD τ).loc main_arg4)) (m ((c : Thread nD τ).loc main_arg5)) := by
  refine (W7_arr m ρ c 2).trans ((region2_final (V6 m ρ) c).trans ?_)
  show Cert.Gcn.relu64 (Cert.Gcn.addRow64 (W6 m ρ c (Proc.devRef .tc main_v45)) (W6 m ρ c (Proc.devRef .tc main_v46))) = _
  rw [W6_v45', W6_v46, W5_arg5, W3_arg5, reshape64_eq]
  rfl

/-- Region 3 multiplies by the second 64 × 64 weight. -/
theorem W8_v48 (c : Dev nD) : W8 m ρ c (Proc.devRef .tc main_v48) = Cert.Gcn.lin64 (Cert.Gcn.conv (aggK (W3 m ρ c (Proc.devRef .tc main_v3)) (W3 m ρ c (Proc.devRef .tc main_v6)) (W3 m ρ c (Proc.devRef .tc main_v29))) (Cert.Gcn.hidden0 (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) := by
  refine (W8_arr m ρ c 2).trans ((region3_final (V7 m ρ) c).trans ?_)
  show Cert.Gcn.lin64 (W7 m ρ c (Proc.devRef .tc main_v47)) (W7 m ρ c (Proc.devRef .tc main_arg6)) = _
  rw [W7_v47, W7_arg6, W3_arg6]

/-- The second aggregation, over the same edge arrays. -/
theorem W9_v61' (c : Dev nD) : W9 m ρ c (Proc.devRef .tc main_v61) = aggK (W3 m ρ c (Proc.devRef .tc main_v3)) (W3 m ρ c (Proc.devRef .tc main_v6)) (W3 m ρ c (Proc.devRef .tc main_v29)) (Cert.Gcn.lin64 (Cert.Gcn.conv (aggK (W3 m ρ c (Proc.devRef .tc main_v3)) (W3 m ρ c (Proc.devRef .tc main_v6)) (W3 m ρ c (Proc.devRef .tc main_v29))) (Cert.Gcn.hidden0 (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) := by
  rw [W9_v61, W8_v3, W8_v6, W8_v29, W8_v48]

/-- Region 4 adds the bias row and rectifies: the second convolution round. -/
theorem W10_v63 (c : Dev nD) : W10 m ρ c (Proc.devRef .tc main_v63) = Cert.Gcn.conv (aggK (W3 m ρ c (Proc.devRef .tc main_v3)) (W3 m ρ c (Proc.devRef .tc main_v6)) (W3 m ρ c (Proc.devRef .tc main_v29))) (Cert.Gcn.conv (aggK (W3 m ρ c (Proc.devRef .tc main_v3)) (W3 m ρ c (Proc.devRef .tc main_v6)) (W3 m ρ c (Proc.devRef .tc main_v29))) (Cert.Gcn.hidden0 (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) (m ((c : Thread nD τ).loc main_arg7)) := by
  refine (W10_arr m ρ c 2).trans ((region4_final (V9 m ρ) c).trans ?_)
  show Cert.Gcn.relu64 (Cert.Gcn.addRow64 (W9 m ρ c (Proc.devRef .tc main_v61)) (W9 m ρ c (Proc.devRef .tc main_v62))) = _
  rw [W9_v61', W9_v62, W8_arg7, W3_arg7, reshape64_eq]
  rfl

/-- Region 5, the last dense layer: the result array at the return is the whole network. -/
theorem W12_v65 (c : Dev nD) : W12 m ρ c (Proc.devRef .tc main_v65)
    = Cert.Gcn.net (aggK (W3 m ρ c (Proc.devRef .tc main_v3)) (W3 m ρ c (Proc.devRef .tc main_v6)) (W3 m ρ c (Proc.devRef .tc main_v29))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((region5_final (V11 m ρ) c).trans ?_)
  show Cert.Gcn.addRow16 (Cert.Gcn.lin16 (W11 m ρ c (Proc.devRef .tc main_v63)) (W11 m ρ c (Proc.devRef .tc main_arg8))) (W11 m ρ c (Proc.devRef .tc main_v64)) = _
  rw [W11_keep_v63, W10_v63, W11_arg8, W3_arg8, W11_v64, W10_arg9, W3_arg9, reshape16_eq]
  rfl

end Cert.KernelIdeal.Val

end
-- ==== Proof.RefOps.lean ====
/-
  The reference's dense stages, read index by index over the extended reals: its `dot_general` with one contracted
  axis is the sum over `k` of `x[r, k] · w[k, j]`; its bias, a vector broadcast first to one row and then down every
  row, adds `b[j]` at column `j`; its rectifier is the maximum with the broadcast zero. Each is stated for arbitrary
  operands as one of the specification's functions.
-/
import proofs.«103870_j48739288875467_1_alg».proof.Proof.Gen.ReferenceIdeal
import proofs.«103870_j48739288875467_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefOps

open Cert.ReferenceIdeal Cert.ReferenceIdeal.Gen Idealize.ShloMosaic Idealize.ShloMosaic.TcCoe Idealize.ShloMosaic.ValueIdx

/-! ## The 32 → 64 product -/

/-- The left operand's index on its row axis is the output's row: axis 0 of the left operand is a free axis. -/
theorem dot32_lhs_0 (i : S100000x64.Idx) (q : dot_S100000x32_S32x64_S100000x64_1_0_0_1_n_n.contr.Idx) :
    (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl
/-- The left operand's index on its column axis is the contraction index: axis 1 of the left operand is the one contracted axis. -/
theorem dot32_lhs_1 (i : S100000x64.Idx) (q : dot_S100000x32_S32x64_S100000x64_1_0_0_1_n_n.contr.Idx) :
    (dot_S100000x32_S32x64_S100000x64_1_0_0_1_n_n.lhsIdx i q 1).val = (q ⟨0, by decide⟩).val :=
  dot_S100000x32_S32x64_S100000x64_1_0_0_1_n_n.lhsIdx_val_of_single rfl i q
/-- The right operand's index on its row axis is the contraction index: axis 0 of the right operand is the one contracted axis. -/
theorem dot32_rhs_0 (i : S100000x64.Idx) (q : dot_S100000x32_S32x64_S100000x64_1_0_0_1_n_n.contr.Idx) :
    (dot_S100000x32_S32x64_S100000x64_1_0_0_1_n_n.rhsIdx i q 0).val = (q ⟨0, by decide⟩).val :=
  dot_S100000x32_S32x64_S100000x64_1_0_0_1_n_n.rhsIdx_val_of_single rfl i q
/-- The right operand's index on its column axis is the output's column: axis 1 of the right operand is a free axis. -/
theorem dot32_rhs_1 (i : S100000x64.Idx) (q : dot_S100000x32_S32x64_S100000x64_1_0_0_1_n_n.contr.Idx) :
    (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

/-- The 32 → 64 product: over the extended reals the product's entry `(r, j)` is the sum over the contraction
index set of the two operands' entries; that set has one axis of size 32, so the sum is over `k < 32`, and the
operands are read at `(r, k)` and `(k, j)`. -/
theorem dot32_eq (x : FVec Ideal S100000x32 .f32) (w : FVec Ideal S32x64 .f32) :
    Host.dotGeneral (F := Ideal) dot_S100000x32_S32x64_S100000x64_1_0_0_1_n_n none x w = Cert.Gcn.lin32 x w := by
  funext i
  simp only [Host.dotGeneral]
  rw [Ideal.dotGeneral_apply, ← Equiv.sum_comp (ValueIdx.contrEquiv1 dot_S100000x32_S32x64_S100000x64_1_0_0_1_n_n 32 rfl rfl).symm]
  show _ = ∑ k : Fin 32, x (ix2 (Cert.Gcn.rowOf i) k) * w (ix2 k (Cert.Gcn.colOf i))
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = ix2 (Cert.Gcn.rowOf i) k := funext fun a => Fin.ext (by
    match a with
    | ⟨0, _⟩ => exact dot32_lhs_0 _ _
    | ⟨1, _⟩ => exact (dot32_lhs_1 _ _).trans hk)
  have er : dot_S100000x32_S32x64_S100000x64_1_0_0_1_n_n.rhsIdx i ((ValueIdx.contrEquiv1 dot_S100000x32_S32x64_S100000x64_1_0_0_1_n_n 32 rfl rfl).symm k) = ix2 k (Cert.Gcn.colOf i) := funext fun a => Fin.ext (by
    match a with
    | ⟨0, _⟩ => exact (dot32_rhs_0 _ _).trans hk
    | ⟨1, _⟩ => exact dot32_rhs_1 _ _)
  rw [el, er]

/-! ## The 64 → 64 product -/

/-- The left operand's index on its row axis is the output's row: axis 0 of the left operand is a free axis. -/
theorem dot64_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- The left operand's index on its column axis is the contraction index: axis 1 of the left operand is the one contracted axis. -/
theorem dot64_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand's index on its row axis is the contraction index: axis 0 of the right operand is the one contracted axis. -/
theorem dot64_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- The right operand's index on its column axis is the output's column: axis 1 of the right operand is a free axis. -/
theorem dot64_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The 64 → 64 product: over the extended reals the product's entry `(r, j)` is the sum over the contraction
index set of the two operands' entries; that set has one axis of size 64, so the sum is over `k < 64`, and the
operands are read at `(r, k)` and `(k, j)`. -/
theorem dot64_eq (x : FVec Ideal S100000x64 .f32) (w : FVec Ideal S64x64 .f32) :
    Host.dotGeneral (F := Ideal) dot_S100000x64_S64x64_S100000x64_1_0_0_1_n_n none x w = Cert.Gcn.lin64 x w := by
  funext i
  simp only [Host.dotGeneral]
  rw [Ideal.dotGeneral_apply, ← Equiv.sum_comp (ValueIdx.contrEquiv1 dot_S100000x64_S64x64_S100000x64_1_0_0_1_n_n 64 rfl rfl).symm]
  show _ = ∑ k : Fin 64, x (ix2 (Cert.Gcn.rowOf i) k) * w (ix2 k (Cert.Gcn.colOf i))
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (Cert.Gcn.rowOf i) k := funext fun a => Fin.ext (by
    match a with
    | ⟨0, _⟩ => exact dot64_lhs_0 _ _
    | ⟨1, _⟩ => exact (dot64_lhs_1 _ _).trans hk)
  have er : dot_S100000x64_S64x64_S100000x64_1_0_0_1_n_n.rhsIdx i ((ValueIdx.contrEquiv1 dot_S100000x64_S64x64_S100000x64_1_0_0_1_n_n 64 rfl rfl).symm k) = ix2 k (Cert.Gcn.colOf i) := funext fun a => Fin.ext (by
    match a with
    | ⟨0, _⟩ => exact (dot64_rhs_0 _ _).trans hk
    | ⟨1, _⟩ => exact dot64_rhs_1 _ _)
  rw [el, er]

/-! ## The 64 → 16 product -/

/-- The left operand's index on its row axis is the output's row: axis 0 of the left operand is a free axis. -/
theorem dot16_lhs_0 (i : S100000x16.Idx) (q : dot_S100000x64_S64x16_S100000x16_1_0_0_1_n_n.contr.Idx) :
    (dot_S100000x64_S64x16_S100000x16_1_0_0_1_n_n.lhsIdx i q 0).val = (i 0).val := by
  unfold DotDims.lhsIdx
  rw [dif_neg (show ¬(0 : Fin S100000x64.rank) ∈ dot_S100000x64_S64x16_S100000x16_1_0_0_1_n_n.lhsBatch by decide), dif_pos (show (0 : Fin S100000x64.rank) ∈ dot_S100000x64_S64x16_S100000x16_1_0_0_1_n_n.lhsNonContracting by decide)]
  rfl
/-- The left operand's index on its column axis is the contraction index: axis 1 of the left operand is the one contracted axis. -/
theorem dot16_lhs_1 (i : S100000x16.Idx) (q : dot_S100000x64_S64x16_S100000x16_1_0_0_1_n_n.contr.Idx) :
    (dot_S100000x64_S64x16_S100000x16_1_0_0_1_n_n.lhsIdx i q 1).val = (q ⟨0, by decide⟩).val :=
  dot_S100000x64_S64x16_S100000x16_1_0_0_1_n_n.lhsIdx_val_of_single rfl i q
/-- The right operand's index on its row axis is the contraction index: axis 0 of the right operand is the one contracted axis. -/
theorem dot16_rhs_0 (i : S100000x16.Idx) (q : dot_S100000x64_S64x16_S100000x16_1_0_0_1_n_n.contr.Idx) :
    (dot_S100000x64_S64x16_S100000x16_1_0_0_1_n_n.rhsIdx i q 0).val = (q ⟨0, by decide⟩).val :=
  dot_S100000x64_S64x16_S100000x16_1_0_0_1_n_n.rhsIdx_val_of_single rfl i q
/-- The right operand's index on its column axis is the output's column: axis 1 of the right operand is a free axis. -/
theorem dot16_rhs_1 (i : S100000x16.Idx) (q : dot_S100000x64_S64x16_S100000x16_1_0_0_1_n_n.contr.Idx) :
    (dot_S100000x64_S64x16_S100000x16_1_0_0_1_n_n.rhsIdx i q 1).val = (i 1).val := by
  unfold DotDims.rhsIdx
  rw [dif_neg (show ¬(1 : Fin S64x16.rank) ∈ dot_S100000x64_S64x16_S100000x16_1_0_0_1_n_n.rhsBatch by decide), dif_pos (show (1 : Fin S64x16.rank) ∈ dot_S100000x64_S64x16_S100000x16_1_0_0_1_n_n.rhsNonContracting by decide)]
  rfl

/-- The 64 → 16 product: over the extended reals the product's entry `(r, j)` is the sum over the contraction
index set of the two operands' entries; that set has one axis of size 64, so the sum is over `k < 64`, and the
operands are read at `(r, k)` and `(k, j)`. -/
theorem dot16_eq (x : FVec Ideal S100000x64 .f32) (w : FVec Ideal S64x16 .f32) :
    Host.dotGeneral (F := Ideal) dot_S100000x64_S64x16_S100000x16_1_0_0_1_n_n none x w = Cert.Gcn.lin16 x w := by
  funext i
  simp only [Host.dotGeneral]
  rw [Ideal.dotGeneral_apply, ← Equiv.sum_comp (ValueIdx.contrEquiv1 dot_S100000x64_S64x16_S100000x16_1_0_0_1_n_n 64 rfl rfl).symm]
  show _ = ∑ k : Fin 64, x (ix2 (Cert.Gcn.rowOf i) k) * w (ix2 k (Cert.Gcn.colOf i))
  refine Finset.sum_congr rfl fun k _ => ?_
  have hk := ValueIdx.contrEquiv1_symm_val dot_S100000x64_S64x16_S100000x16_1_0_0_1_n_n 64 rfl rfl k
  have el : dot_S100000x64_S64x16_S100000x16_1_0_0_1_n_n.lhsIdx i ((ValueIdx.contrEquiv1 dot_S100000x64_S64x16_S100000x16_1_0_0_1_n_n 64 rfl rfl).symm k) = ix2 (Cert.Gcn.rowOf i) k := funext fun a => Fin.ext (by
    match a with
    | ⟨0, _⟩ => exact dot16_lhs_0 _ _
    | ⟨1, _⟩ => exact (dot16_lhs_1 _ _).trans hk)
  have er : dot_S100000x64_S64x16_S100000x16_1_0_0_1_n_n.rhsIdx i ((ValueIdx.contrEquiv1 dot_S100000x64_S64x16_S100000x16_1_0_0_1_n_n 64 rfl rfl).symm k) = ix2 k (Cert.Gcn.colOf i) := funext fun a => Fin.ext (by
    match a with
    | ⟨0, _⟩ => exact (dot16_rhs_0 _ _).trans hk
    | ⟨1, _⟩ => exact dot16_rhs_1 _ _)
  rw [el, er]

/-! ## The bias rows -/

/-- A 64-vector broadcast to one row and then to every row, added: the second broadcast reads the one row at
`(0, j)` (its row axis has size one, its column axis is kept), the first reads the vector at `j`. -/
theorem bias64_eq (y : FVec Ideal S100000x64 .f32) (b : FVec Ideal S64 .f32) :
    addf y (broadcastInDim S100000x64 ![0, 1] bcast_S1x64_S100000x64_0_1 (broadcastInDim S1x64 ![1] bcast_S64_S1x64_1 b))
      = Cert.Gcn.addRow64 y (Cert.Gcn.asRow64 b) := by
  funext i
  show y i + broadcastInDim S100000x64 ![0, 1] bcast_S1x64_S100000x64_0_1 (broadcastInDim S1x64 ![1] bcast_S64_S1x64_1 b) i
    = y i + Cert.Gcn.asRow64 b (ix2 (0 : Fin 1) (Cert.Gcn.colOf i))
  refine congrArg (fun t => y i + t) ?_
  refine (broadcastInDim_apply _ bcast_S1x64_S100000x64_0_1 _ i (ix2 (0 : Fin 1) (Cert.Gcn.colOf i)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b _ (ix1 (Cert.Gcn.colOf i)) (fun a => match a with
    | ⟨0, _⟩ => by show (i 1).val = if (64 : Nat) = 1 then 0 else (i 1).val; rw [if_neg (by decide)])

/-- A 16-vector broadcast to one row and then to every row, added: the second broadcast reads the one row at
`(0, j)` (its row axis has size one, its column axis is kept), the first reads the vector at `j`. -/
theorem bias16_eq (y : FVec Ideal S100000x16 .f32) (b : FVec Ideal S16 .f32) :
    addf y (broadcastInDim S100000x16 ![0, 1] bcast_S1x16_S100000x16_0_1 (broadcastInDim S1x16 ![1] bcast_S16_S1x16_1 b))
      = Cert.Gcn.addRow16 y (Cert.Gcn.asRow16 b) := by
  funext i
  show y i + broadcastInDim S100000x16 ![0, 1] bcast_S1x16_S100000x16_0_1 (broadcastInDim S1x16 ![1] bcast_S16_S1x16_1 b) i
    = y i + Cert.Gcn.asRow16 b (ix2 (0 : Fin 1) (Cert.Gcn.colOf i))
  refine congrArg (fun t => y i + t) ?_
  refine (broadcastInDim_apply _ bcast_S1x16_S100000x16_0_1 _ i (ix2 (0 : Fin 1) (Cert.Gcn.colOf i)) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])).trans ?_
  exact broadcastInDim_apply _ bcast_S16_S1x16_1 b _ (ix1 (Cert.Gcn.colOf i)) (fun a => match a with
    | ⟨0, _⟩ => by show (i 1).val = if (16 : Nat) = 1 then 0 else (i 1).val; rw [if_neg (by decide)])

/-! ## The rectifier -/

/-- The rectifier: the maximum with the zero word broadcast to every entry. The scalar has no axis, so the broadcast
reads it at its one (empty) index, where the constant is the real the zero word denotes. -/
theorem relu_eq (y : FVec Ideal S100000x64 .f32) :
    maximumf y (broadcastInDim S100000x64 ![] bcast_S_S100000x64 (constant (F := Ideal) S_ .f32 0x00000000#32))
      = Cert.Gcn.relu64 y := by
  funext i
  show max (y i) (broadcastInDim S100000x64 ![] bcast_S_S100000x64 (constant (F := Ideal) S_ .f32 0x00000000#32) i)
    = max (y i) (Ideal.ofBits .f32 0x00000000#32)
  refine congrArg (max (y i)) ?_
  exact (broadcastInDim_apply _ bcast_S_S100000x64 _ i (fun a => a.elim0) (fun a => a.elim0)).trans
    (constant_apply _ _)

end Cert.ReferenceIdeal.RefOps

end
-- ==== Proof.RefNet.lean ====
/-
  The reference program's result as the network of the specification.

  Read one operation at a time, the reference is: the dense layer with bias and rectifier; then twice a product
  with a 64 × 64 weight, the aggregation over the edges, a bias and the rectifier; then the last dense layer with
  bias. Its dense stages are the specification's functions (RefOps.lean). Its aggregation, both times, is ONE
  function `aggR x1` of the node features, built from the edge list `x1` alone: gather along the sources, scale by
  the normalisation, scatter-add along the destinations. The second round names its index and normalisation stages
  anew, but they are the first round's, operation for operation.
-/
import proofs.«103870_j48739288875467_1_alg».proof.Proof.RefRead
import proofs.«103870_j48739288875467_1_alg».proof.Proof.RefOps
import proofs.«103870_j48739288875467_1_alg».proof.Proof.Spec

set_option maxRecDepth 16384

noncomputable section

namespace Cert.ReferenceIdeal.RefNet

open Cert.ReferenceIdeal Cert.ReferenceIdeal.Gen Cert.ReferenceIdeal.ReadP Cert.ReferenceIdeal.RefOps
open Idealize.ShloMosaic Idealize.ShloMosaic.TcCoe

/-- The reference's aggregation over the edges, as a function of the node features `T`: the rows of `T` gathered
    along the source nodes, scaled by the edges' normalisation, scatter-added into zeros along the destinations;
    sources, destinations and normalisation are the reference's own stages of the edge list `x1`. -/
def aggR (x1 : (⟨S2x1600000, .i32⟩ : BufTy).Contents (Elt Ideal)) (T : FVec Ideal S100000x64 .f32) : FVec Ideal S100000x64 .f32 :=
  Host.scatterAdd (F := Ideal) scatter_S100000x64_S1700000x1_S1700000x64_1_0_0_1 (val_main_v46 (F := Ideal)) (val_main_v47 (F := Ideal) x1)
    (mulf (Host.gather gather_S100000x64_S1700000x1_S1700000x64_1_0_n_n_0_1_164 T (val_main_v41 (F := Ideal) x1))
      (val_main_v44 (F := Ideal) x1))

variable (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x16, .f32⟩ : BufTy).Contents (Elt Ideal)) (x9 : (⟨S16, .f32⟩ : BufTy).Contents (Elt Ideal))

/-- The first hidden layer. -/
theorem hidden_eq : val_main_v34 (F := Ideal) x0 x2 x3 = Cert.Gcn.hidden0 x0 x2 x3 := by
  unfold val_main_v34 val_main_v33 val_main_v32 val_main_v31 val_main_v30 val_main_call1_v0 val_main_call1_cst
  rw [dot32_eq, bias64_eq, relu_eq]
  rfl

/-- Its product with the first 64 × 64 weight. -/
theorem prod1_eq : val_main_v35 (F := Ideal) x0 x2 x3 x4 = Cert.Gcn.lin64 (Cert.Gcn.hidden0 x0 x2 x3) x4 := by
  unfold val_main_v35
  rw [hidden_eq, dot64_eq]

/-- The first aggregation is `aggR` of that product. -/
theorem agg1_eq : val_main_v48 (F := Ideal) x0 x1 x2 x3 x4 = aggR x1 (Cert.Gcn.lin64 (Cert.Gcn.hidden0 x0 x2 x3) x4) := by
  unfold val_main_v48 val_main_v45 val_main_v42
  rw [prod1_eq]
  rfl

/-- The first convolution round. -/
theorem conv1_eq : val_main_v52 (F := Ideal) x0 x1 x2 x3 x4 x5
    = Cert.Gcn.conv (aggR x1) (Cert.Gcn.hidden0 x0 x2 x3) x4 x5 := by
  unfold val_main_v52 val_main_v51 val_main_v50 val_main_v49 val_main_call2_v0 val_main_call2_cst
  rw [agg1_eq, bias64_eq, relu_eq]
  rfl

/-- Its product with the second 64 × 64 weight. -/
theorem prod2_eq : val_main_v53 (F := Ideal) x0 x1 x2 x3 x4 x5 x6
    = Cert.Gcn.lin64 (Cert.Gcn.conv (aggR x1) (Cert.Gcn.hidden0 x0 x2 x3) x4 x5) x6 := by
  unfold val_main_v53
  rw [conv1_eq, dot64_eq]

/-- The second round's index, normalisation, zero and destination stages are the first round's. -/
theorem agg_again (T : FVec Ideal S100000x64 .f32) :
    Host.scatterAdd (F := Ideal) scatter_S100000x64_S1700000x1_S1700000x64_1_0_0_1 (val_main_v64 (F := Ideal)) (val_main_v65 (F := Ideal) x1)
      (mulf (Host.gather gather_S100000x64_S1700000x1_S1700000x64_1_0_n_n_0_1_164 T (val_main_v59 (F := Ideal) x1))
        (val_main_v62 (F := Ideal) x1)) = aggR x1 T := rfl

/-- The second aggregation is `aggR` of the second product. -/
theorem agg2_eq : val_main_v66 (F := Ideal) x0 x1 x2 x3 x4 x5 x6
    = aggR x1 (Cert.Gcn.lin64 (Cert.Gcn.conv (aggR x1) (Cert.Gcn.hidden0 x0 x2 x3) x4 x5) x6) := by
  unfold val_main_v66 val_main_v63 val_main_v60
  rw [prod2_eq]
  exact agg_again x1 _

/-- The second convolution round. -/
theorem conv2_eq : val_main_v70 (F := Ideal) x0 x1 x2 x3 x4 x5 x6 x7
    = Cert.Gcn.conv (aggR x1) (Cert.Gcn.conv (aggR x1) (Cert.Gcn.hidden0 x0 x2 x3) x4 x5) x6 x7 := by
  unfold val_main_v70 val_main_v69 val_main_v68 val_main_v67 val_main_call3_v0 val_main_call3_cst
  rw [agg2_eq, bias64_eq, relu_eq]
  rfl

/-- The reference's result is the whole network over `aggR`. -/
theorem net_eq : val_main_v74 (F := Ideal) x0 x1 x2 x3 x4 x5 x6 x7 x8 x9
    = Cert.Gcn.net (aggR x1) x0 x2 x3 x4 x5 x6 x7 x8 x9 := by
  unfold val_main_v74 val_main_v73 val_main_v72 val_main_v71
  rw [conv2_eq, dot16_eq, bias16_eq]
  rfl

end Cert.ReferenceIdeal.RefNet

end
-- ==== Proof.Bridge.lean ====
/-
  The two programs compute their edge arrays and their aggregation by the same host operations: the kernel
  program's first stretch writes the sources, the destinations and the normalisation exactly as the reference's
  first stages do, and its aggregation `aggK` of them is the reference's `aggR` of the edge list. So the kernel
  program's result, the network over `aggK` of its three edge arrays, is the network over `aggR` of its edge list.
-/
import proofs.«103870_j48739288875467_1_alg».proof.Proof.KernelChain
import proofs.«103870_j48739288875467_1_alg».proof.Proof.RefNet

set_option maxRecDepth 16384

noncomputable section

namespace Cert.Proof.Bridge

open Idealize.ShloMosaic Idealize.ShloMosaic.TcCoe Idealize.ShloMosaic.StableHlo Idealize.SL.Sem

/-! ## The edge arrays, at any float instance (they are integer and float host operations read as written) -/

section AnyInstance

variable {F : FTy → Type} [FloatOps F]
variable (m : (ℓ : Loc Cert.KernelIdeal.nD Cert.KernelIdeal.τ Cert.KernelIdeal.sig) → Buf (Elt F) ℓ) (ρ : Dev Cert.KernelIdeal.nD → PrngReg)

set_option maxHeartbeats 4000000 in
/-- The source nodes (the edge list's first row, then the self loops) are the reference's. -/
theorem src_eq (c : Dev Cert.KernelIdeal.nD) :
    Cert.KernelIdeal.Gen.W3 m ρ c (Proc.devRef .tc Cert.KernelIdeal.main_v3) = Cert.ReferenceIdeal.ReadP.val_main_v3 (F := F) (m ((c : Thread Cert.KernelIdeal.nD Cert.KernelIdeal.τ).loc Cert.KernelIdeal.main_arg1)) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v3) = _
  dsimp only [Cert.KernelIdeal.Gen.hostOps0_2, Cert.KernelIdeal.Gen.hostOps0_1, Cert.KernelIdeal.Gen.hostOps0]
  after_results_simp
  rfl

set_option maxHeartbeats 4000000 in
/-- The destination nodes (the edge list's second row, then the self loops) are the reference's. -/
theorem dst_eq (c : Dev Cert.KernelIdeal.nD) :
    Cert.KernelIdeal.Gen.W3 m ρ c (Proc.devRef .tc Cert.KernelIdeal.main_v6) = Cert.ReferenceIdeal.ReadP.val_main_v6 (F := F) (m ((c : Thread Cert.KernelIdeal.nD Cert.KernelIdeal.τ).loc Cert.KernelIdeal.main_arg1)) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v6) = _
  dsimp only [Cert.KernelIdeal.Gen.hostOps0_2, Cert.KernelIdeal.Gen.hostOps0_1, Cert.KernelIdeal.Gen.hostOps0]
  after_results_simp
  rfl

set_option maxHeartbeats 4000000 in
/-- The edges' normalisation (the product of the inverse square roots of the two end nodes' degrees) is the reference's. -/
theorem nrm_eq (c : Dev Cert.KernelIdeal.nD) :
    Cert.KernelIdeal.Gen.W3 m ρ c (Proc.devRef .tc Cert.KernelIdeal.main_v29) = Cert.ReferenceIdeal.ReadP.val_main_v29 (F := F) (m ((c : Thread Cert.KernelIdeal.nD Cert.KernelIdeal.τ).loc Cert.KernelIdeal.main_arg1)) := by
  show StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v29) = _
  dsimp only [Cert.KernelIdeal.Gen.hostOps0_2, Cert.KernelIdeal.Gen.hostOps0_1, Cert.KernelIdeal.Gen.hostOps0]
  after_results_simp
  rfl

end AnyInstance

variable (m : (ℓ : Loc Cert.KernelIdeal.nD Cert.KernelIdeal.τ Cert.KernelIdeal.sig) → Buf (Elt Ideal) ℓ) (ρ : Dev Cert.KernelIdeal.nD → PrngReg)

/-- The kernel program's aggregation of the reference's edge arrays is the reference's aggregation. -/
theorem agg_eq (x1 : (⟨Cert.ReferenceIdeal.S2x1600000, .i32⟩ : BufTy).Contents (Elt Ideal)) (T : (⟨Cert.ReferenceIdeal.S100000x64, .f32⟩ : BufTy).Contents (Elt Ideal)) :
    Cert.KernelIdeal.Val.aggK (Cert.ReferenceIdeal.ReadP.val_main_v3 (F := Ideal) x1) (Cert.ReferenceIdeal.ReadP.val_main_v6 (F := Ideal) x1) (Cert.ReferenceIdeal.ReadP.val_main_v29 (F := Ideal) x1) T
      = Cert.ReferenceIdeal.RefNet.aggR x1 T := rfl

/-- The kernel program's result array at the return is the network over the reference's aggregation. -/
theorem kernel_value (c : Dev Cert.KernelIdeal.nD) :
    Cert.KernelIdeal.Gen.W12 m ρ c (Proc.devRef .tc Cert.KernelIdeal.main_v65)
      = Cert.Gcn.net (Cert.ReferenceIdeal.RefNet.aggR (m ((c : Thread Cert.KernelIdeal.nD Cert.KernelIdeal.τ).loc Cert.KernelIdeal.main_arg1))) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  rw [Cert.KernelIdeal.Val.W12_v65, src_eq (F := Ideal), dst_eq (F := Ideal), nrm_eq (F := Ideal)]
  exact congrArg (fun a => Cert.Gcn.net a (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)))
    (funext (agg_eq (m ((c : Thread Cert.KernelIdeal.nD Cert.KernelIdeal.τ).loc Cert.KernelIdeal.main_arg1))))

end Cert.Proof.Bridge

end
-- ==== Proof.lean ====
/-
  The certificate of a graph-convolution network on 100000 nodes: a Pallas TPU program of six kernels (a dense
  layer with bias and rectifier; twice a 64 × 64 product, then on the host the aggregation over 1700000 edges, then
  bias and rectifier; a last dense layer with bias) against the plain reference that computes the same network with
  host operations only.

  Over the extended reals the two agree entry by entry. A kernel casts its operands to bf16 and back, which is the
  identity there; it multiplies into a zero accumulator, which is the reference's `dot_general`, the sum over `k` of
  `x[r, k] · w[k, j]`; it takes 10000 rows at a grid point, and the ten blocks tile the 100000 rows, so each region
  leaves the whole-array function the reference's stage computes (Region0 … Region5, RefOps). The aggregation over
  the edges is computed by both programs with the same host operations from the same edge list, so it enters as one
  function that is never opened (KernelHost, RefNet, Bridge); no law of the extended reals beyond reading each
  operation at an index is used, and the finiteness of the inputs is not needed.

  The frames: the kernel program's, at both instances, are the generated ones; the reference's is its run with the
  result dropped. The kernel program's run with its result NAMED is the launch over the same segments once more
  (KernelRunNamed). `preserves` is trivial: the idealisation rewrote nothing.
-/
import proofs.«103870_j48739288875467_1_alg».proof.Defs
import proofs.«103870_j48739288875467_1_alg».proof.Proof.Gen.Kernel
import proofs.«103870_j48739288875467_1_alg».proof.Proof.Gen.Kernel.Skeleton
import proofs.«103870_j48739288875467_1_alg».proof.Proof.Gen.Kernel.Launch
import proofs.«103870_j48739288875467_1_alg».proof.Proof.Gen.Kernel.Points
import proofs.«103870_j48739288875467_1_alg».proof.Proof.Gen.Kernel.Frame
import proofs.«103870_j48739288875467_1_alg».proof.Proof.Gen.KernelIdeal
import proofs.«103870_j48739288875467_1_alg».proof.Proof.Gen.KernelIdeal.Skeleton
import proofs.«103870_j48739288875467_1_alg».proof.Proof.Gen.KernelIdeal.Launch
import proofs.«103870_j48739288875467_1_alg».proof.Proof.Gen.KernelIdeal.Points
import proofs.«103870_j48739288875467_1_alg».proof.Proof.Gen.KernelIdeal.Frame
import proofs.«103870_j48739288875467_1_alg».proof.Proof.Gen.ReferenceIdeal
import proofs.«103870_j48739288875467_1_alg».proof.Proof.Gen.Pre_finite_inputs
import proofs.«103870_j48739288875467_1_alg».proof.Proof.KernelRunNamed
import proofs.«103870_j48739288875467_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealisation. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the network of the specification over the reference's aggregation of the edge list, of
    arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.net (Cert.ReferenceIdeal.RefNet.aggR (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Proof.Bridge.kernel_value m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v74_eq, Cert.ReferenceIdeal.RefNet.net_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
